-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x64 : Shape := ⟨2, ![512, 64]⟩
abbrev S64 : Shape := ⟨1, ![64]⟩
abbrev S4x32 : Shape := ⟨2, ![4, 32]⟩
abbrev S14x32x4x32 : Shape := ⟨4, ![14, 32, 4, 32]⟩
abbrev S32x4 : Shape := ⟨2, ![32, 4]⟩
abbrev S32x64 : Shape := ⟨2, ![32, 64]⟩
abbrev S64x1 : Shape := ⟨2, ![64, 1]⟩
abbrev S1 : Shape := ⟨1, ![1]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S4x32 : S_.BroadcastsInDim S4x32 (![] : Fin 0 → Fin S4x32.rank)
  reducesTo_S4x32_S_d0_1 : S4x32.ReducesTo [0, 1] S_
  bcast_S_S14x32x4x32 : S_.BroadcastsInDim S14x32x4x32 (![] : Fin 0 → Fin S14x32x4x32.rank)
  reducesTo_S14x32x4x32_S_d0_1_2_3 : S14x32x4x32.ReducesTo [0, 1, 2, 3] S_
  bcast_S_S32x4 : S_.BroadcastsInDim S32x4 (![] : Fin 0 → Fin S32x4.rank)
  reducesTo_S32x4_S_d0_1 : S32x4.ReducesTo [0, 1] S_
  bcast_S_S32x64 : S_.BroadcastsInDim S32x64 (![] : Fin 0 → Fin S32x64.rank)
  reducesTo_S32x64_S_d0_1 : S32x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S32x4 .f32) (main_arg8 : FVec F S32x64 .f32) (main_arg9 : FVec F S64 .f32) (main_arg10 : FVec F S64x1 .f32) (main_arg11 : FVec F S1 .f32) (main_v33 : IVec S_ 1) : IVec S_ 1 :=
  let main_v34 : FVec F S32x4 .f32 := Host.absf main_arg7
  let main_cst_12 : FVec F S_ .f32 := constant S_ .f32 0x7F800000#32
  let main_v35 : FVec F S32x4 .f32 := broadcastInDim S32x4 ![] bcast_S_S32x4 main_cst_12
  let main_v36 : IVec S32x4 1 := cmpf .olt main_v34 main_v35
  let main_c_13 : IVec S_ 1 := constantI S_ 1 1#1
  let main_v37 : IVec S_ 1 := (fun x v => Host.reduce IntOp.andi x v reducesTo_S32x4_S_d0_1 h_S_) main_v36 main_c_13
  let main_v38 : IVec S_ 1 := andi main_v33 main_v37
  let main_v39 : FVec F S32x64 .f32 := Host.absf main_arg8
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S64 .f32) (main_arg5 : FVec F S4x32 .f32) (main_arg6 : FVec F S14x32x4x32 .f32) (main_arg7 : FVec F S32x4 .f32) (main_arg8 : FVec F S32x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x32 .f32 := Host.absf main_arg5
  let main_cst_8 : FVec F S_ .f32 := constant S_ .f32 0x7F800000#32
  let main_v25 : FVec F S4x32 .f32 := broadcastInDim S4x32 ![] bcast_S_S4x32 main_cst_8
  let main_v26 : IVec S4x32 1 := cmpf .olt main_v24 main_v25
  let main_c_9 : IVec S_ 1 := constantI S_ 1 1#1
  let main_v27 : IVec S_ 1 := (fun x v => Host.reduce IntOp.andi x v reducesTo_S4x32_S_d0_1 h_S_) main_v26 main_c_9
  let main_v28 : IVec S_ 1 := andi main_v23 main_v27
  let main_v29 : FVec F S14x32x4x32 .f32 := Host.absf main_arg6
  let main_cst_10 : FVec F S_ .f32 := constant S_ .f32 0x7F800000#32
  let main_v30 : FVec F S14x32x4x32 .f32 := broadcastInDim S14x32x4x32 ![] bcast_S_S14x32x4x32 main_cst_10
  let main_v31 : IVec S14x32x4x32 1 := cmpf .olt main_v29 main_v30
  let main_c_11 : IVec S_ 1 := constantI S_ 1 1#1
  let main_v32 : IVec S_ 1 := (fun x v => Host.reduce IntOp.andi x v reducesTo_S14x32x4x32_S_d0_1_2_3 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x512 .f32) (main_arg1 : FVec F S512x64 .f32) (main_arg2 : FVec F S64 .f32) (main_arg3 : FVec F S64 .f32) (main_arg4 : FVec F S64 .f32) (main_arg5 : FVec F S4x32 .f32) (main_arg6 : FVec F S14x32x4x32 .f32) (main_arg7 : FVec F S32x4 .f32) (main_arg8 : FVec F S32x64 .f32) (main_arg9 : FVec F S64 .f32) (main_arg10 : FVec F S64x1 .f32) (main_arg11 : FVec F S1 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S131072x512 : Shape := ⟨2, ![131072, 512]⟩
abbrev S512x64 : Shape := ⟨2, ![512, 64]⟩
abbrev S64 : Shape := ⟨1, ![64]⟩
abbrev S4x32 : Shape := ⟨2, ![4, 32]⟩
abbrev S14x32x4x32 : Shape := ⟨4, ![14, 32, 4, 32]⟩
abbrev S32x4 : Shape := ⟨2, ![32, 4]⟩
abbrev S32x64 : Shape := ⟨2, ![32, 64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S131072x1 : Shape := ⟨2, ![131072, 1]⟩
abbrev S4096x512 : Shape := ⟨2, ![4096, 512]⟩
abbrev S4096x1 : Shape := ⟨2, ![4096, 1]⟩
abbrev S4096x64 : Shape := ⟨2, ![4096, 64]⟩
abbrev S4096 : Shape := ⟨1, ![4096]⟩
abbrev S4096x4 : Shape := ⟨2, ![4096, 4]⟩
abbrev S4096x32 : Shape := ⟨2, ![4096, 32]⟩

abbrev nBuf : Space → Nat
  | .hbm => 18
  | .vmem => 13
  | .smem => 0
  | _ => 0

abbrev bufTy : (tb : Table) → Fin (tcTables nBuf tb) → BufTy
  | .hbm, ⟨0, _⟩ => ⟨S131072x512, .f32⟩
  | .hbm, ⟨1, _⟩ => ⟨S512x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4x32, .f32⟩
  | .hbm, ⟨6, _⟩ => ⟨S14x32x4x32, .f32⟩
  | .hbm, ⟨7, _⟩ => ⟨S32x4, .f32⟩
  | .hbm, ⟨8, _⟩ => ⟨S32x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x1, .f32⟩
  | .hbm, ⟨17, _⟩ => ⟨S131072x1, .f32⟩
  | .local _ .vmem, ⟨0, _⟩ => ⟨S4096x512, .f32⟩
  | .local _ .vmem, ⟨1, _⟩ => ⟨S4096x512, .f32⟩
  | .local _ .vmem, ⟨2, _⟩ => ⟨S512x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S4x32, .f32⟩
  | .local _ .vmem, ⟨7, _⟩ => ⟨S32x64, .f32⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S4096x1, .f32⟩
  | .local _ .vmem, ⟨12, _⟩ => ⟨S4096x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S64_S1x64 : S64.ShapeCasts S1x64
  shapeCasts_S1_S1x1 : S1.ShapeCasts S1x1
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  slices_S4096x64_o0_0_S4096x4 : S4096x64.Slices ![0, 0] S4096x4
  inb_S4x32_S4x32_0_0 : ∀ a, (![0, 0] : Fin 2 → Nat) a + S4x32.size a ≤ S4x32.size a
  h_S4x32 : 0 < S4x32.numel
  inb_S32x64_S32x64_0_0 : ∀ a, (![0, 0] : Fin 2 → Nat) a + S32x64.size a ≤ S32x64.size a
  h_S32x64 : 0 < S32x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x512_S512x64_S4096x64_1_0_0_1_n_n_wf : DotDims.WF S4096x512 S512x64 S4096x64 [1] [0] [0] [1] [] []
  dot_S4096x4_S4x32_S4096x32_1_0_0_1_n_n_wf : DotDims.WF S4096x4 S4x32 S4096x32 [1] [0] [0] [1] [] []
  dot_S4096x32_S32x64_S4096x64_1_0_0_1_n_n_wf : DotDims.WF S4096x32 S32x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x32.size a ≤ S4x32.size a
  hwx0_5 : ∀ i : grid0.Coords, EltTy.bits .f32 = 32 ∨ (Rect.block (s := S4x32) S4x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x1.size a ≤ S131072x1.size a
  hwx0_10 : ∀ i : grid0.Coords, EltTy.bits .f32 = 32 ∨ (Rect.block (s := S131072x1) S4096x1.size (cc0_transform_10 i) (hinb0_10 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x4_S4x32_S4096x32_1_0_0_1_n_n : DotDims S4096x4 S4x32 S4096x32 where
  lhsContracting := [1]
  rhsContracting := [0]
  lhsNonContracting := [0]
  rhsNonContracting := [1]
  lhsBatch := []
  rhsBatch := []
  wf := dot_S4096x4_S4x32_S4096x32_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S4096x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x64 : Shape := ⟨2, ![512, 64]⟩
abbrev S64 : Shape := ⟨1, ![64]⟩
abbrev S4x32 : Shape := ⟨2, ![4, 32]⟩
abbrev S14x32x4x32 : Shape := ⟨4, ![14, 32, 4, 32]⟩
abbrev S32x4 : Shape := ⟨2, ![32, 4]⟩
abbrev S32x64 : Shape := ⟨2, ![32, 64]⟩
abbrev S64x1 : Shape := ⟨2, ![64, 1]⟩
abbrev S1 : Shape := ⟨1, ![1]⟩
abbrev S131072x64 : Shape := ⟨2, ![131072, 64]⟩
abbrev S1x64 : Shape := ⟨2, ![1, 64]⟩
abbrev S_ : Shape := ⟨0, ![]⟩
abbrev S131072 : Shape := ⟨1, ![131072]⟩
abbrev S131072x1 : Shape := ⟨2, ![131072, 1]⟩
abbrev S131072x16x4 : Shape := ⟨3, ![131072, 16, 4]⟩
abbrev S131072x1x4 : Shape := ⟨3, ![131072, 1, 4]⟩
abbrev S131072x4 : Shape := ⟨2, ![131072, 4]⟩
abbrev S131072x32 : Shape := ⟨2, ![131072, 32]⟩
abbrev S1x32x4x32 : Shape := ⟨4, ![1, 32, 4, 32]⟩
abbrev S32x4x32 : Shape := ⟨3, ![32, 4, 32]⟩
abbrev S131072x4x32 : Shape := ⟨3, ![131072, 4, 32]⟩
abbrev S1x1 : Shape := ⟨2, ![1, 1]⟩

abbrev nBuf : Space → Nat
  | .hbm => 177
  | .vmem => 0
  | .smem => 0
  | _ => 0

abbrev hbmTy0_0 (i : Nat) : BufTy := match i % 128 with
  | 0 => ⟨S131072x512, .f32⟩
  | 1 => ⟨S512x64, .f32⟩
  | 2 => ⟨S64, .f32⟩
  | 3 => ⟨S64, .f32⟩
  | 4 => ⟨S64, .f32⟩
  | 5 => ⟨S4x32, .f32⟩
  | 6 => ⟨S14x32x4x32, .f32⟩
  | 7 => ⟨S32x4, .f32⟩
  | 8 => ⟨S32x64, .f32⟩
  | 9 => ⟨S64, .f32⟩
  | 10 => ⟨S64x1, .f32⟩
  | 11 => ⟨S1, .f32⟩
  | 12 => ⟨S131072x64, .f32⟩
  | 13 => ⟨S1x64, .f32⟩
  | 14 => ⟨S131072x64, .f32⟩
  | 15 => ⟨S131072x64, .f32⟩
  | 16 => ⟨S_, .f32⟩
  | 17 => ⟨S131072x64, .f32⟩
  | 18 => ⟨S131072x64, .f32⟩
  | 19 => ⟨S_, .f32⟩
  | 20 => ⟨S131072, .f32⟩
  | 21 => ⟨S131072x1, .f32⟩
  | 22 => ⟨S_, .f32⟩
  | 23 => ⟨S131072x1, .f32⟩
  | 24 => ⟨S131072x1, .f32⟩
  | 25 => ⟨S_, .i32⟩
  | 26 => ⟨S_, .f32⟩
  | 27 => ⟨S131072, .f32⟩
  | 28 => ⟨S131072x1, .f32⟩
  | 29 => ⟨S_, .f32⟩
  | 30 => ⟨S131072x1, .f32⟩
  | 31 => ⟨S131072x1, .f32⟩
  | 32 => ⟨S131072x64, .f32⟩
  | 33 => ⟨S131072x64, .f32⟩
  | 34 => ⟨S131072x64, .f32⟩
  | 35 => ⟨S_, .f32⟩
  | 36 => ⟨S_, .f32⟩
  | 37 => ⟨S_, .f32⟩
  | 38 => ⟨S_, .f32⟩
  | 39 => ⟨S131072, .f32⟩
  | 40 => ⟨S131072x1, .f32⟩
  | 41 => ⟨S131072x1, .f32⟩
  | 42 => ⟨S131072x1, .f32⟩
  | 43 => ⟨S_, .f32⟩
  | 44 => ⟨S_, .i1⟩
  | 45 => ⟨S_, .f32⟩
  | 46 => ⟨S_, .f32⟩
  | 47 => ⟨S131072x1, .f32⟩
  | 48 => ⟨S131072x1, .f32⟩
  | 49 => ⟨S131072x64, .f32⟩
  | 50 => ⟨S131072x64, .f32⟩
  | 51 => ⟨S_, .f32⟩
  | 52 => ⟨S131072x1, .f32⟩
  | 53 => ⟨S131072x1, .f32⟩
  | 54 => ⟨S131072x1, .f32⟩
  | 55 => ⟨S131072x64, .f32⟩
  | 56 => ⟨S131072x64, .f32⟩
  | 57 => ⟨S1x64, .f32⟩
  | 58 => ⟨S131072x64, .f32⟩
  | 59 => ⟨S131072x64, .f32⟩
  | 60 => ⟨S1x64, .f32⟩
  | 61 => ⟨S131072x64, .f32⟩
  | 62 => ⟨S131072x64, .f32⟩
  | 63 => ⟨S131072x16x4, .f32⟩
  | 64 => ⟨S131072x1x4, .f32⟩
  | 65 => ⟨S131072x4, .f32⟩
  | 66 => ⟨S131072x32, .f32⟩
  | 67 => ⟨S1x32x4x32, .f32⟩
  | 68 => ⟨S32x4x32, .f32⟩
  | 69 => ⟨S131072x4x32, .f32⟩
  | 70 => ⟨S131072x1x4, .f32⟩
  | 71 => ⟨S131072x4, .f32⟩
  | 72 => ⟨S131072x32, .f32⟩
  | 73 => ⟨S1x32x4x32, .f32⟩
  | 74 => ⟨S32x4x32, .f32⟩
  | 75 => ⟨S131072x4x32, .f32⟩
  | 76 => ⟨S131072x1x4, .f32⟩
  | 77 => ⟨S131072x4, .f32⟩
  | 78 => ⟨S131072x32, .f32⟩
  | 79 => ⟨S1x32x4x32, .f32⟩
  | 80 => ⟨S32x4x32, .f32⟩
  | 81 => ⟨S131072x4x32, .f32⟩
  | 82 => ⟨S131072x1x4, .f32⟩
  | 83 => ⟨S131072x4, .f32⟩
  | 84 => ⟨S131072x32, .f32⟩
  | 85 => ⟨S1x32x4x32, .f32⟩
  | 86 => ⟨S32x4x32, .f32⟩
  | 87 => ⟨S131072x4x32, .f32⟩
  | 88 => ⟨S131072x1x4, .f32⟩
  | 89 => ⟨S131072x4, .f32⟩
  | 90 => ⟨S131072x32, .f32⟩
  | 91 => ⟨S1x32x4x32, .f32⟩
  | 92 => ⟨S32x4x32, .f32⟩
  | 93 => ⟨S131072x4x32, .f32⟩
  | 94 => ⟨S131072x1x4, .f32⟩
  | 95 => ⟨S131072x4, .f32⟩
  | 96 => ⟨S131072x32, .f32⟩
  | 97 => ⟨S1x32x4x32, .f32⟩
  | 98 => ⟨S32x4x32, .f32⟩
  | 99 => ⟨S131072x4x32, .f32⟩
  | 100 => ⟨S131072x1x4, .f32⟩
  | 101 => ⟨S131072x4, .f32⟩
  | 102 => ⟨S131072x32, .f32⟩
  | 103 => ⟨S1x32x4x32, .f32⟩
  | 104 => ⟨S32x4x32, .f32⟩
  | 105 => ⟨S131072x4x32, .f32⟩
  | 106 => ⟨S131072x1x4, .f32⟩
  | 107 => ⟨S131072x4, .f32⟩
  | 108 => ⟨S131072x32, .f32⟩
  | 109 => ⟨S1x32x4x32, .f32⟩
  | 110 => ⟨S32x4x32, .f32⟩
  | 111 => ⟨S131072x4x32, .f32⟩
  | 112 => ⟨S131072x1x4, .f32⟩
  | 113 => ⟨S131072x4, .f32⟩
  | 114 => ⟨S131072x32, .f32⟩
  | 115 => ⟨S1x32x4x32, .f32⟩
  | 116 => ⟨S32x4x32, .f32⟩
  | 117 => ⟨S131072x4x32, .f32⟩
  | 118 => ⟨S131072x1x4, .f32⟩
  | 119 => ⟨S131072x4, .f32⟩
  | 120 => ⟨S131072x32, .f32⟩
  | 121 => ⟨S1x32x4x32, .f32⟩
  | 122 => ⟨S32x4x32, .f32⟩
  | 123 => ⟨S131072x4x32, .f32⟩
  | 124 => ⟨S131072x1x4, .f32⟩
  | 125 => ⟨S131072x4, .f32⟩
  | 126 => ⟨S131072x32, .f32⟩
  | 127 => ⟨S1x32x4x32, .f32⟩
  | _ => ⟨S131072x512, .f32⟩

abbrev hbmTy0_1 (i : Nat) : BufTy := match i % 128 with
  | 0 => ⟨S32x4x32, .f32⟩
  | 1 => ⟨S131072x4x32, .f32⟩
  | 2 => ⟨S131072x1x4, .f32⟩
  | 3 => ⟨S131072x4, .f32⟩
  | 4 => ⟨S131072x32, .f32⟩
  | 5 => ⟨S1x32x4x32, .f32⟩
  | 6 => ⟨S32x4x32, .f32⟩
  | 7 => ⟨S131072x4x32, .f32⟩
  | 8 => ⟨S131072x1x4, .f32⟩
  | 9 => ⟨S131072x4, .f32⟩
  | 10 => ⟨S131072x32, .f32⟩
  | 11 => ⟨S1x32x4x32, .f32⟩
  | 12 => ⟨S32x4x32, .f32⟩
  | 13 => ⟨S131072x4x32, .f32⟩
  | 14 => ⟨S131072x1x4, .f32⟩
  | 15 => ⟨S131072x4, .f32⟩
  | 16 => ⟨S131072x32, .f32⟩
  | 17 => ⟨S1x32x4x32, .f32⟩
  | 18 => ⟨S32x4x32, .f32⟩
  | 19 => ⟨S131072x4x32, .f32⟩
  | 20 => ⟨S131072x1x4, .f32⟩
  | 21 => ⟨S131072x4, .f32⟩
  | 22 => ⟨S131072x32, .f32⟩
  | 23 => ⟨S131072x4, .f32⟩
  | 24 => ⟨S131072x1x4, .f32⟩
  | 25 => ⟨S131072x4, .f32⟩
  | 26 => ⟨S131072x4, .f32⟩
  | 27 => ⟨S_, .f32⟩
  | 28 => ⟨S131072, .f32⟩
  | 29 => ⟨S131072x1, .f32⟩
  | 30 => ⟨S131072x64, .f32⟩
  | 31 => ⟨S1x64, .f32⟩
  | 32 => ⟨S131072x64, .f32⟩
  | 33 => ⟨S131072x64, .f32⟩
  | 34 => ⟨S_, .f32⟩
  | 35 => ⟨S131072x64, .f32⟩
  | 36 => ⟨S131072x64, .f32⟩
  | 37 => ⟨S131072x1, .f32⟩
  | 38 => ⟨S1x1, .f32⟩
  | 39 => ⟨S131072x1, .f32⟩
  | 40 => ⟨S131072x1, .f32⟩
  | 41 => ⟨S131072x1, .f32⟩
  | 42 => ⟨S131072x1, .f32⟩
  | 43 => ⟨S_, .f32⟩
  | 44 => ⟨S131072x1, .f32⟩
  | 45 => ⟨S131072x1, .f32⟩
  | 46 => ⟨S_, .f32⟩
  | 47 => ⟨S131072x1, .f32⟩
  | 48 => ⟨S131072x1, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_cst_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_cst_2 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_cst_3 : Ref sig .tc := ⟨.hbm, 43, rfl⟩
abbrev main_call1_v13 : Ref sig .tc := ⟨.hbm, 44, rfl⟩
abbrev main_call1_cst_4 : Ref sig .tc := ⟨.hbm, 45, rfl⟩
abbrev main_call1_call0_v0 : Ref sig .tc := ⟨.hbm, 46, rfl⟩
abbrev main_call1_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_2 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_call2_cst : Ref sig .tc := ⟨.hbm, 162, rfl⟩
abbrev main_call2_v0 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_3 : Ref sig .tc := ⟨.hbm, 171, rfl⟩
abbrev main_v128 : Ref sig .tc := ⟨.hbm, 172, rfl⟩
abbrev main_v129 : Ref sig .tc := ⟨.hbm, 173, rfl⟩
abbrev main_cst_4 : Ref sig .tc := ⟨.hbm, 174, rfl⟩
abbrev main_v130 : Ref sig .tc := ⟨.hbm, 175, rfl⟩
abbrev main_v131 : Ref sig .tc := ⟨.hbm, 176, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  reducesTo_S131072x64_S131072_d1 : S131072x64.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x64_0_1 : S131072x1.BroadcastsInDim S131072x64 (![0, 1] : Fin 2 → Fin S131072x64.rank)
  shapeCasts_S131072x64_S131072x16x4 : S131072x64.ShapeCasts S131072x16x4
  slices_S131072x16x4_S131072x1x4_0_0_0 : S131072x16x4.Slices ![0, 0, 0] S131072x1x4
  shapeCasts_S131072x1x4_S131072x4 : S131072x1x4.ShapeCasts S131072x4
  slices_S14x32x4x32_S1x32x4x32_0_0_0_0 : S14x32x4x32.Slices ![0, 0, 0, 0] S1x32x4x32
  shapeCasts_S1x32x4x32_S32x4x32 : S1x32x4x32.ShapeCasts S32x4x32
  slices_S131072x16x4_S131072x1x4_0_1_0 : S131072x16x4.Slices ![0, 1, 0] S131072x1x4
  slices_S14x32x4x32_S1x32x4x32_1_0_0_0 : S14x32x4x32.Slices ![1, 0, 0, 0] S1x32x4x32
  slices_S131072x16x4_S131072x1x4_0_2_0 : S131072x16x4.Slices ![0, 2, 0] S131072x1x4
  slices_S14x32x4x32_S1x32x4x32_2_0_0_0 : S14x32x4x32.Slices ![2, 0, 0, 0] S1x32x4x32
  slices_S131072x16x4_S131072x1x4_0_3_0 : S131072x16x4.Slices ![0, 3, 0] S131072x1x4
  slices_S14x32x4x32_S1x32x4x32_3_0_0_0 : S14x32x4x32.Slices ![3, 0, 0, 0] S1x32x4x32
  slices_S131072x16x4_S131072x1x4_0_4_0 : S131072x16x4.Slices ![0, 4, 0] S131072x1x4
  slices_S14x32x4x32_S1x32x4x32_4_0_0_0 : S14x32x4x32.Slices ![4, 0, 0, 0] S1x32x4x32
  slices_S131072x16x4_S131072x1x4_0_5_0 : S131072x16x4.Slices ![0, 5, 0] S131072x1x4
  slices_S14x32x4x32_S1x32x4x32_5_0_0_0 : S14x32x4x32.Slices ![5, 0, 0, 0] S1x32x4x32
  slices_S131072x16x4_S131072x1x4_0_6_0 : S131072x16x4.Slices ![0, 6, 0] S131072x1x4
  slices_S14x32x4x32_S1x32x4x32_6_0_0_0 : S14x32x4x32.Slices ![6, 0, 0, 0] S1x32x4x32
  slices_S131072x16x4_S131072x1x4_0_7_0 : S131072x16x4.Slices ![0, 7, 0] S131072x1x4
  slices_S14x32x4x32_S1x32x4x32_7_0_0_0 : S14x32x4x32.Slices ![7, 0, 0, 0] S1x32x4x32
  slices_S131072x16x4_S131072x1x4_0_8_0 : S131072x16x4.Slices ![0, 8, 0] S131072x1x4
  slices_S14x32x4x32_S1x32x4x32_8_0_0_0 : S14x32x4x32.Slices ![8, 0, 0, 0] S1x32x4x32
  slices_S131072x16x4_S131072x1x4_0_9_0 : S131072x16x4.Slices ![0, 9, 0] S131072x1x4
  slices_S14x32x4x32_S1x32x4x32_9_0_0_0 : S14x32x4x32.Slices ![9, 0, 0, 0] S1x32x4x32
  slices_S131072x16x4_S131072x1x4_0_10_0 : S131072x16x4.Slices ![0, 10, 0] S131072x1x4
  slices_S14x32x4x32_S1x32x4x32_10_0_0_0 : S14x32x4x32.Slices ![10, 0, 0, 0] S1x32x4x32
  slices_S131072x16x4_S131072x1x4_0_11_0 : S131072x16x4.Slices ![0, 11, 0] S131072x1x4
  slices_S14x32x4x32_S1x32x4x32_11_0_0_0 : S14x32x4x32.Slices ![11, 0, 0, 0] S1x32x4x32
  slices_S131072x16x4_S131072x1x4_0_12_0 : S131072x16x4.Slices ![0, 12, 0] S131072x1x4
  slices_S14x32x4x32_S1x32x4x32_12_0_0_0 : S14x32x4x32.Slices ![12, 0, 0, 0] S1x32x4x32
  slices_S131072x16x4_S131072x1x4_0_13_0 : S131072x16x4.Slices ![0, 13, 0] S131072x1x4
  slices_S14x32x4x32_S1x32x4x32_13_0_0_0 : S14x32x4x32.Slices ![13, 0, 0, 0] S1x32x4x32
  slices_S131072x16x4_S131072x1x4_0_14_0 : S131072x16x4.Slices ![0, 14, 0] S131072x1x4
  slices_S131072x16x4_S131072x1x4_0_15_0 : S131072x16x4.Slices ![0, 15, 0] S131072x1x4
  reducesTo_S131072x4_S131072_d1 : S131072x4.ReducesTo [1] S131072
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  dot_S131072x512_S512x64_S131072x64_1_0_0_1_n_n_wf : DotDims.WF S131072x512 S512x64 S131072x64 [1] [0] [0] [1] [] []
  dot_S131072x4_S4x32_S131072x32_1_0_0_1_n_n_wf : DotDims.WF S131072x4 S4x32 S131072x32 [1] [0] [0] [1] [] []
  dot_S131072x32_S32x4x32_S131072x4x32_1_0_0_12_n_n_wf : DotDims.WF S131072x32 S32x4x32 S131072x4x32 [1] [0] [0] [1, 2] [] []
  dot_S131072x4x32_S131072x4_S131072x32_1_1_2_n_0_0_wf : DotDims.WF S131072x4x32 S131072x4 S131072x32 [1] [1] [2] [] [0] [0]
  dot_S131072x32_S32x4_S131072x4_1_0_0_1_n_n_wf : DotDims.WF S131072x32 S32x4 S131072x4 [1] [0] [0] [1] [] []
  dot_S131072x32_S32x64_S131072x64_1_0_0_1_n_n_wf : DotDims.WF S131072x32 S32x64 S131072x64 [1] [0] [0] [1] [] []
  dot_S131072x64_S64x1_S131072x1_1_0_0_1_n_n_wf : DotDims.WF S131072x64 S64x1 S131072x1 [1] [0] [0] [1] [] []

variable [Facts₀]

def dot_S131072x512_S512x64_S131072x64_1_0_0_1_n_n : DotDims S131072x512 S512x64 S131072x64 where
  lhsContracting := [1]
  rhsContracting := [0]
  lhsNonContracting := [0]
  rhsNonContracting := [1]
  lhsBatch := []
  rhsBatch := []
  wf := dot_S131072x512_S512x64_S131072x64_1_0_0_1_n_n_wf
def dot_S131072x4_S4x32_S131072x32_1_0_0_1_n_n : DotDims S131072x4 S4x32 S131072x32 where
  lhsContracting := [1]
  rhsContracting := [0]
  lhsNonContracting := [0]
  rhsNonContracting := [1]
  lhsBatch := []
  rhsBatch := []
  wf := dot_S131072x4_S4x32_S131072x32_1_0_0_1_n_n_wf
def dot_S131072x32_S32x4x32_S131072x4x32_1_0_0_12_n_n : DotDims S131072x32 S32x4x32 S131072x4x32 where
  lhsContracting := [1]
  rhsContracting := [0]
  lhsNonContracting := [0]
  rhsNonContracting := [1, 2]
  lhsBatch := []
  rhsBatch := []
  wf := dot_S131072x32_S32x4x32_S131072x4x32_1_0_0_12_n_n_wf
def dot_S131072x4x32_S131072x4_S131072x32_1_1_2_n_0_0 : DotDims S131072x4x32 S131072x4 S131072x32 where
  lhsContracting := [1]
  rhsContracting := [1]
  lhsNonContracting := [2]
  rhsNonContracting := []
  lhsBatch := [0]
  rhsBatch := [0]
  wf := dot_S131072x4x32_S131072x4_S131072x32_1_1_2_n_0_0_wf
def dot_S131072x32_S32x4_S131072x4_1_0_0_1_n_n : DotDims S131072x32 S32x4 S131072x4 where
  lhsContracting := [1]
  rhsContracting := [0]
  lhsNonContracting := [0]
  rhsNonContracting := [1]
  lhsBatch := []
  rhsBatch := []
  wf := dot_S131072x32_S32x4_S131072x4_1_0_0_1_n_n_wf
def dot_S131072x32_S32x64_S131072x64_1_0_0_1_n_n : DotDims S131072x32 S32x64 S131072x64 where
  lhsContracting := [1]
  rhsContracting := [0]
  lhsNonContracting := [0]
  rhsNonContracting := [1]
  lhsBatch := []
  rhsBatch := []
  wf := dot_S131072x32_S32x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.Spec.lean ====
/-
  The mathematics both programs compute, row by row, on the extended reals.

  For one row x (512 entries) and the weights as plain functions of coordinates:
    h  = max (x·W + b) 0                       the encoder's hidden row, 64 entries
    μ  = (Σ h) / 64,   σ² = (Σ (h − μ)²) / 64   its mean and biased variance
    y  = ((h − μ) / sqrt (σ² + ε)) · g + β      the normalised row
    s  = y[0..3] · M                           the site-0 contraction, 32 entries
    d  = max (s·W₁ + b₁) 0                     the decoder's hidden row, 64 entries
    out = logistic (d·W₂ + b₂)
  The kernel multiplies by the reciprocal square root where the reference divides by the square root. On the
  extended reals x · rsqrt v = x / sqrt v whenever 0 < v (at v = ⊤ both sides are x · 0), and v = σ² + ε is positive
  for EVERY row of extended reals: a square is nonnegative (⊥ · ⊥ = ⊤), so is a sum of squares and its quotient by 64,
  and ε is a positive real. No finiteness of the inputs is needed.
-/
import Idealize.ShloMosaic.PureOps.Ideal
import Idealize.ShloMosaic.PureOps.Ideal.Laws

noncomputable section

namespace Cert.Spec

open Idealize.ShloMosaic
open scoped BigOperators

/-! ## The four literals -/

/-- The word of 64.0 denotes the real 64. -/
theorem ofBits_64 : Ideal.ofBits .f32 0x42800000#32 = ((64 : ℝ) : EReal) := by
  simp [Ideal.ofBits, Ideal.ieee, -EReal.coe_mul]; norm_num

/-- The word of 1.0 denotes 1. -/
theorem ofBits_one : Ideal.ofBits .f32 0x3F800000#32 = 1 := by
  simp [Ideal.ofBits, Ideal.ieee, -EReal.coe_mul]; norm_num

/-- The layer norm's ε (the f32 nearest 1e-5) denotes a positive real. -/
theorem eps_pos : (0 : EReal) < Ideal.ofBits .f32 0x3727C5AC#32 := by
  simp [Ideal.ofBits, Ideal.ieee, -EReal.coe_mul]

/-! ## The row's stages -/

/-- max (x·W + b) 0, entry j. -/
def encRow (x : Fin 512 → EReal) (W : Fin 512 → Fin 64 → EReal) (b : Fin 64 → EReal) (j : Fin 64) : EReal :=
  max ((∑ k, x k * W k j) + b j) (Ideal.ofBits .f32 0x00000000#32)

/-- The mean of 64 entries. -/
def mean (h : Fin 64 → EReal) : EReal := Ideal.div (∑ j, h j) (Ideal.ofBits .f32 0x42800000#32)

/-- The biased variance of 64 entries. -/
def var (h : Fin 64 → EReal) : EReal :=
  Ideal.div (∑ j, (h j - mean h) * (h j - mean h)) (Ideal.ofBits .f32 0x42800000#32)

/-- ((h − μ) / sqrt (σ² + ε)) · g + β, entry j. -/
def lnRow (h g β : Fin 64 → EReal) (j : Fin 64) : EReal :=
  Ideal.div (h j - mean h) (Ideal.sqrt (var h + Ideal.ofBits .f32 0x3727C5AC#32)) * g j + β j

/-- The first four entries against the 4 × 32 tensor, entry x. -/
def siteRow (y : Fin 64 → EReal) (M : Fin 4 → Fin 32 → EReal) (x : Fin 32) : EReal :=
  ∑ p : Fin 4, y (Fin.castLE (by decide) p) * M p x

/-- max (s·W₁ + b₁) 0, entry q. -/
def decRow (s : Fin 32 → EReal) (W1 : Fin 32 → Fin 64 → EReal) (b1 : Fin 64 → EReal) (q : Fin 64) : EReal :=
  max ((∑ x, s x * W1 x q) + b1 q) (Ideal.ofBits .f32 0x00000000#32)

/-- logistic (d·W₂ + b₂). -/
def outRow (d : Fin 64 → EReal) (W2 : Fin 64 → EReal) (b2 : EReal) : EReal :=
  Ideal.logistic ((∑ q, d q * W2 q) + b2)

/-- One row's result. -/
def rowOut (x : Fin 512 → EReal) (W : Fin 512 → Fin 64 → EReal) (b g β : Fin 64 → EReal) (M : Fin 4 → Fin 32 → EReal)
    (W1 : Fin 32 → Fin 64 → EReal) (b1 : Fin 64 → EReal) (W2 : Fin 64 → EReal) (b2 : EReal) : EReal :=
  outRow (decRow (siteRow (lnRow (encRow x W b) g β) M) W1 b1) W2 b2

/-! ## The law that joins the two sides -/

/-- A square of an extended real is nonnegative. -/
theorem mul_self_nonneg' (x : EReal) : 0 ≤ x * x := by
  induction x using EReal.rec with
  | bot => rw [EReal.bot_mul_bot]; exact le_top
  | coe r => rw [← EReal.coe_mul]; exact_mod_cast mul_self_nonneg r
  | top => rw [EReal.top_mul_top]; exact le_top

/-- The variance is nonnegative, whatever the entries. -/
theorem var_nonneg (h : Fin 64 → EReal) : 0 ≤ var h := by
  unfold var
  rw [ofBits_64, Ideal.div_coe (by norm_num : (64 : ℝ) ≠ 0)]
  refine mul_nonneg (Finset.sum_nonneg fun j _ => mul_self_nonneg' _) ?_
  exact_mod_cast (by norm_num : (0 : ℝ) ≤ 1 / 64)

/-- So σ² + ε is positive. -/
theorem var_add_eps_pos (h : Fin 64 → EReal) : 0 < var h + Ideal.ofBits .f32 0x3727C5AC#32 :=
  lt_of_lt_of_le eps_pos (le_add_of_nonneg_left (var_nonneg h))

/-- Multiplying by the reciprocal square root is dividing by the square root, at every positive extended real. -/
theorem mul_rsqrt_eq_div_sqrt (x v : EReal) (hv : 0 < v) : x * Ideal.rsqrt v = Ideal.div x (Ideal.sqrt v) := by
  induction v using EReal.rec with
  | bot => exact absurd hv not_lt_bot
  | top =>
    rw [Ideal.rsqrt_top, Ideal.sqrt_top, Ideal.div, if_neg EReal.top_ne_zero, EReal.inv_top]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div,
      if_neg (by exact_mod_cast hs), EReal.coe_inv]

/-- The logistic is 1 / (1 + exp (−o)) with the literal ones. -/
theorem logistic_eq (o : EReal) :
    Ideal.div (Ideal.ofBits .f32 0x3F800000#32) (Ideal.ofBits .f32 0x3F800000#32 + Ideal.exp (-o)) = Ideal.logistic o := by
  rw [ofBits_one]; rfl

end Cert.Spec

end
-- ==== Proof.LibMatRows.lean ====
/-
  General lemmas for matrices read at coordinates on the extended reals, for any extents.

  * A product with the plain dimension numbers (contract the left operand's columns with the right operand's rows, no
    batch axis) read at (p, q) is the sum over k of l (p, k) · r (k, q): for a kernel's matrix product into a zero
    accumulator and for the host's dot_general alike. A printed dimension record with these numbers IS the library's
    plain record (the fields agree and the well-formedness proof is a proposition), so the lemmas take the record and
    that equation.
  * A sum along the rows of a rank-2 array, read at row p, is the sum over the columns k of the array at (p, k): for a
    vector reduction and for the host's reduce (which adds its initial value) alike.
-/
import Idealize.ShloMosaic.PureOps.Ideal
import Idealize.ShloMosaic.PureOps.Ideal.Laws
import Idealize.ShloMosaic.Lib.ValueIdx

noncomputable section

namespace Cert.LibMatRows

open Idealize.ShloMosaic Idealize.ShloMosaic.ValueIdx
open scoped BigOperators

/-! ## The plain product -/

section Plain
variable (M K N : Nat)

/-- The plain record contracts one axis of extent K. -/
abbrev kEquiv : (DotDims.plain M K N).contr.Idx ≃ Fin K := contrEquiv1 (DotDims.plain M K N) K rfl rfl

/-- The left operand is read at (p, k). -/
theorem plain_lhsIdx (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single (cl := 1) rfl (ix2 p q) ((kEquiv M K N).symm k)).trans
      (contrEquiv1_symm_val (DotDims.plain M K N) K rfl rfl k)

/-- The right operand is read at (k, q). -/
theorem plain_rhsIdx (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single (cr := 0) rfl (ix2 p q) ((kEquiv M K N).symm k)).trans
      (contrEquiv1_symm_val (DotDims.plain M K N) K rfl rfl k)
  | ⟨1, _⟩ => rfl

/-- The contraction's sum, re-indexed by the contracted coordinate. -/
theorem plain_sum (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (kEquiv M K N).symm]
  exact Finset.sum_congr rfl fun k _ => by rw [plain_lhsIdx, plain_rhsIdx]

end Plain

/-- A kernel's matrix product into the zero accumulator, with plain dimension numbers, at (p, q). -/
theorem matmul_plain_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum M K N l r p q)

/-- The host's dot_general with plain dimension numbers, at (p, q). -/
theorem dotGeneral_plain_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  exact (Ideal.dotGeneral_apply _ prec .single l r (ix2 p q)).trans (plain_sum M K N l r p q)

/-! ## Row sums -/

/-- The index a row-sum reads: row p, column k. -/
theorem lift_rows {A B : Nat} (h : (⟨2, ![A, B]⟩ : Shape).Reduces [1] ⟨1, ![A]⟩) (p : Fin A) (k : Fin B) :
    h.lift (ix1 p) k = ix2 p k := by
  funext a
  apply Fin.ext
  match a with
  | ⟨0, _⟩ => rfl
  | ⟨1, _⟩ => rfl

/-- A vector reduction by addition along the rows, at row p. -/
theorem multiReduction_rows_apply {A B : Nat} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) :=
  (Ideal.multiReduction_add_single src acc h hφ hacc (ix1 p)).trans
    (Finset.sum_congr rfl fun k _ => congrArg src (lift_rows h p k))

/-- The host's reduce by addition along the rows, at row p: the initial value plus the row's sum. -/
theorem hostReduceAdd_rows_apply {A B : Nat} {φ : FTy} {u : Shape} (x : FVec Ideal ⟨2, ![A, B]⟩ φ) (init : u.Idx → Ideal φ)
    (h' : (⟨2, ![A, B]⟩ : Shape).ReducesTo [1] ⟨1, ![A]⟩) (hu : 0 < u.numel)
    (h : (⟨2, ![A, B]⟩ : Shape).Reduces [1] ⟨1, ![A]⟩) (p : Fin A) :
    Host.reduceAdd x init h' hu (ix1 p) = init (Shape.Idx.first hu) + ∑ k : Fin B, x (ix2 p k) :=
  (Ideal.hostReduceAdd_single h' h x (init (Shape.Idx.first hu)) (ix1 p)).trans
    (congrArg (init (Shape.Idx.first hu) + ·) (Finset.sum_congr rfl fun k _ => congrArg x (lift_rows h p k)))

end Cert.LibMatRows

end
-- ==== Proof.LibVecRows.lean ====
/-
  General lemmas for a column of a matrix read at coordinates, for any extents and any element type.

  * A length-a vector viewed as an a × 1 column reads, at (p, 0), the vector at p.
  * An a × 1 column broadcast over the b entries of each row reads, at (p, c), the column at (p, 0).
-/
import Idealize.ShloMosaic.Lib.ValueIdx
import Idealize.ShloMosaic.Lib.Pipeline.Value

noncomputable section

namespace Cert.LibVecRows

open Idealize.ShloMosaic Idealize.ShloMosaic.ValueIdx

variable {α : Type}

/-- A vector as a column: the same row-major position. -/
theorem shapeCast_col_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- A column laid over its row's entries: the operand's second axis is a unit axis, read at 0. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.KernelRows.lean ====
/-
  The kernel's body on one 4096-row block, read at a row: the value it stores at (y, 0) is the row function of row y
  of the feature block and of the weight blocks read at coordinates.

  The body is, stage by stage: the hidden block max(x·W + b, 0); each row's mean and variance as columns (a sum along the
  row over 64); the normalised block (h − μ) · rsqrt(σ² + ε) · g + β; its first four columns; the product with the
  4 × 32 tensor; the decoder's hidden block; the product with the 64 × 1 matrix plus the bias; the logistic. Format
  changes are the identity on the extended reals and a matrix product into the zero accumulator is the plain sum, so
  every stage reads at (y, j) as the matching stage of the row function; the one step that is not a spelling is
  (h − μ) · rsqrt v = (h − μ) / sqrt v, which holds because v = σ² + ε is positive for every row.
-/
import proofs.«172635_j55654186221891_1_alg».proof.Proof.Gen.KernelIdeal.Skeleton
import proofs.«172635_j55654186221891_1_alg».proof.Proof.Spec
import proofs.«172635_j55654186221891_1_alg».proof.Proof.LibMatRows
import proofs.«172635_j55654186221891_1_alg».proof.Proof.LibVecRows
import Idealize.ShloMosaic.Lib.ValueLayout

noncomputable section

namespace Cert.KernelRows

open Idealize.ShloMosaic Idealize.ShloMosaic.ValueIdx Cert.KernelIdeal Cert.KernelIdeal.Gen
open Cert.Spec Cert.LibMatRows Cert.LibVecRows
open scoped BigOperators

/-! ## The encoder and the layer norm -/

/-- The hidden block. -/
def hid (x0 : FVec Ideal S4096x512 .f32) (x1 : FVec Ideal S512x64 .f32) (x2 : FVec Ideal S1x64 .f32) : FVec Ideal S4096x64 .f32 :=
  maximumf (addf (matmul dot_S4096x512_S512x64_S4096x64_1_0_0_1_n_n none (truncf .bf16 x0 bitsLt_bf16_f32)
      (truncf .bf16 x1 bitsLt_bf16_f32) (constant S4096x64 .f32 0x00000000#32))
    (broadcastTo S4096x64 (shapeCast S1x64 x2 shapeCasts_S1x64_S1x64) broadcasts_S1x64_S4096x64))
    (broadcast S4096x64 (Scalar.ofBits .f32 0x00000000#32))

theorem hid_apply (x0 : FVec Ideal S4096x512 .f32) (x1 : FVec Ideal S512x64 .f32) (x2 : FVec Ideal S1x64 .f32)
    (y : Fin 4096) (j : Fin 64) :
    hid x0 x1 x2 (ix2 y j)
      = encRow (fun k => x0 (ix2 y k)) (fun k j => x1 (ix2 k j)) (fun j => x2 (ix2 (0 : Fin 1) j)) j := by
  unfold hid encRow
  rw [maximumf_apply, addf_apply, broadcast_apply,
    matmul_plain_apply dot_S4096x512_S512x64_S4096x64_1_0_0_1_n_n rfl none _ _ y j,
    broadcastTo_1b_ab_apply, shapeCast_self]
  rfl

/-- Each row's sum, as a column. -/
def rowSumV (h : FVec Ideal S4096x64 .f32) : FVec Ideal S4096x1 .f32 :=
  shapeCast S4096x1 (multiReduction .add [1] S4096 h 0x00000000#32 reduces_S4096x64_S4096 (.inl rfl) rfl)
    shapeCasts_S4096_S4096x1

theorem rowSumV_apply (h : FVec Ideal S4096x64 .f32) (y : Fin 4096) :
    rowSumV h (ix2 y (0 : Fin 1)) = ∑ j : Fin 64, h (ix2 y j) := by
  unfold rowSumV
  rw [shapeCast_col_apply]
  exact multiReduction_rows_apply h _ _ _ _ y

/-- Each row's mean. -/
def meanV (h : FVec Ideal S4096x64 .f32) : FVec Ideal S4096x1 .f32 :=
  divf (rowSumV h) (broadcast S4096x1 (Scalar.ofBits .f32 0x42800000#32))

theorem meanV_apply (h : FVec Ideal S4096x64 .f32) (y : Fin 4096) :
    meanV h (ix2 y (0 : Fin 1)) = mean (fun j => h (ix2 y j)) := by
  unfold meanV mean
  rw [divf_apply, broadcast_apply, rowSumV_apply]
  rfl

/-- Each row less its mean. -/
def cenV (h : FVec Ideal S4096x64 .f32) : FVec Ideal S4096x64 .f32 :=
  subf h (broadcastTo S4096x64 (meanV h) broadcasts_S4096x1_S4096x64)

theorem cenV_apply (h : FVec Ideal S4096x64 .f32) (y : Fin 4096) (j : Fin 64) :
    cenV h (ix2 y j) = h (ix2 y j) - mean (fun j => h (ix2 y j)) := by
  unfold cenV
  rw [subf_apply, broadcastTo_col_apply, meanV_apply]

/-- Each row's variance. -/
def varV (h : FVec Ideal S4096x64 .f32) : FVec Ideal S4096x1 .f32 :=
  divf (rowSumV (mulf (cenV h) (cenV h))) (broadcast S4096x1 (Scalar.ofBits .f32 0x42800000#32))

theorem varV_apply (h : FVec Ideal S4096x64 .f32) (y : Fin 4096) :
    varV h (ix2 y (0 : Fin 1)) = var (fun j => h (ix2 y j)) := by
  unfold varV var
  rw [divf_apply, broadcast_apply, rowSumV_apply]
  simp only [mulf_apply, cenV_apply]
  rfl

/-- The normalised block. -/
def lnV (h : FVec Ideal S4096x64 .f32) (x3 x4 : FVec Ideal S1x64 .f32) : FVec Ideal S4096x64 .f32 :=
  addf (mulf (mulf (cenV h)
        (broadcastTo S4096x64 (rsqrt (addf (varV h) (broadcast S4096x1 (Scalar.ofBits .f32 0x3727C5AC#32))))
          broadcasts_S4096x1_S4096x64))
      (broadcastTo S4096x64 (shapeCast S1x64 x3 shapeCasts_S1x64_S1x64) broadcasts_S1x64_S4096x64))
    (broadcastTo S4096x64 (shapeCast S1x64 x4 shapeCasts_S1x64_S1x64) broadcasts_S1x64_S4096x64)

theorem lnV_apply (h : FVec Ideal S4096x64 .f32) (x3 x4 : FVec Ideal S1x64 .f32) (y : Fin 4096) (j : Fin 64) :
    lnV h x3 x4 (ix2 y j)
      = lnRow (fun j => h (ix2 y j)) (fun j => x3 (ix2 (0 : Fin 1) j)) (fun j => x4 (ix2 (0 : Fin 1) j)) j := by
  unfold lnV lnRow
  rw [addf_apply, mulf_apply, mulf_apply, cenV_apply, broadcastTo_col_apply, broadcastTo_1b_ab_apply,
    broadcastTo_1b_ab_apply, shapeCast_self, shapeCast_self]
  show (h (ix2 y j) - mean fun j => h (ix2 y j))
        * Ideal.rsqrt (varV h (ix2 y (0 : Fin 1)) + Ideal.ofBits .f32 0x3727C5AC#32) * x3 (ix2 (0 : Fin 1) j)
        + x4 (ix2 (0 : Fin 1) j) = _
  rw [varV_apply, mul_rsqrt_eq_div_sqrt _ _ (var_add_eps_pos _)]

/-- The first store's operand: the first four columns of the normalised block. -/
theorem pay2_eq (x0 : Vec Ideal S4096x512 .f32) (x1 : Vec Ideal S512x64 .f32) (x2 x3 x4 : Vec Ideal S1x64 .f32) :
    k0_pay2 (F := Ideal) x0 x1 x2 x3 x4
      = truncf .bf16 (extractStridedSlice S4096x4 ![0, 0] (lnV (hid x0 x1 x2) x3 x4) slices_S4096x64_o0_0_S4096x4)
          bitsLt_bf16_f32 := rfl

theorem pay2_apply (x0 : Vec Ideal S4096x512 .f32) (x1 : Vec Ideal S512x64 .f32) (x2 x3 x4 : Vec Ideal S1x64 .f32)
    (y : Fin 4096) (q : Fin 4) :
    k0_pay2 (F := Ideal) x0 x1 x2 x3 x4 (ix2 y q)
      = lnRow (encRow (fun k => x0 (ix2 y k)) (fun k j => x1 (ix2 k j)) (fun j => x2 (ix2 (0 : Fin 1) j)))
          (fun j => x3 (ix2 (0 : Fin 1) j)) (fun j => x4 (ix2 (0 : Fin 1) j)) (Fin.castLE (by decide) q) := by
  rw [pay2_eq, truncf_apply,
    slice2_axis1_apply 0 (lnV (hid x0 x1 x2) x3 x4) slices_S4096x64_o0_0_S4096x4 y q (Fin.castLE (by decide) q)
      (Nat.zero_add _).symm,
    lnV_apply]
  simp only [hid_apply]

/-! ## The site-0 contraction and the decoder -/

/-- The four columns against the 4 × 32 tensor. -/
def siteV (v40 : FVec Ideal S4096x4 .bf16) (x5 : FVec Ideal S4x32 .f32) : FVec Ideal S4096x32 .f32 :=
  matmul dot_S4096x4_S4x32_S4096x32_1_0_0_1_n_n none v40 (truncf .bf16 x5 bitsLt_bf16_f32)
    (constant S4096x32 .f32 0x00000000#32)

theorem siteV_apply (v40 : FVec Ideal S4096x4 .bf16) (x5 : FVec Ideal S4x32 .f32) (y : Fin 4096) (x : Fin 32) :
    siteV v40 x5 (ix2 y x) = ∑ p : Fin 4, v40 (ix2 y p) * x5 (ix2 p x) := by
  unfold siteV
  rw [matmul_plain_apply dot_S4096x4_S4x32_S4096x32_1_0_0_1_n_n rfl none _ _ y x]
  rfl

/-- The decoder's hidden block. -/
def decV (s : FVec Ideal S4096x32 .f32) (x6 : FVec Ideal S32x64 .f32) (x7 : FVec Ideal S1x64 .f32) : FVec Ideal S4096x64 .f32 :=
  maximumf (addf (matmul dot_S4096x32_S32x64_S4096x64_1_0_0_1_n_n none (truncf .bf16 s bitsLt_bf16_f32)
      (truncf .bf16 x6 bitsLt_bf16_f32) (constant S4096x64 .f32 0x00000000#32))
    (broadcastTo S4096x64 (shapeCast S1x64 x7 shapeCasts_S1x64_S1x64) broadcasts_S1x64_S4096x64))
    (broadcast S4096x64 (Scalar.ofBits .f32 0x00000000#32))

theorem decV_apply (s : FVec Ideal S4096x32 .f32) (x6 : FVec Ideal S32x64 .f32) (x7 : FVec Ideal S1x64 .f32)
    (y : Fin 4096) (q : Fin 64) :
    decV s x6 x7 (ix2 y q)
      = decRow (fun x => s (ix2 y x)) (fun x q => x6 (ix2 x q)) (fun q => x7 (ix2 (0 : Fin 1) q)) q := by
  unfold decV decRow
  rw [maximumf_apply, addf_apply, broadcast_apply,
    matmul_plain_apply dot_S4096x32_S32x64_S4096x64_1_0_0_1_n_n rfl none _ _ y q,
    broadcastTo_1b_ab_apply, shapeCast_self]
  rfl

/-- The logistic of a vector is the logistic of each entry. -/
theorem logistic_apply {s : Shape} (v : FVec Ideal s .f32) (i : s.Idx) : logistic v i = Ideal.logistic (v i) := rfl

/-- The stored block: the logistic of the decoder's output. -/
def outV (d : FVec Ideal S4096x64 .f32) (x8 : FVec Ideal S64x1 .f32) (x9 : FVec Ideal S1x1 .f32) : FVec Ideal S4096x1 .f32 :=
  logistic (addf (matmul dot_S4096x64_S64x1_S4096x1_1_0_0_1_n_n none (truncf .bf16 d bitsLt_bf16_f32)
      (truncf .bf16 x8 bitsLt_bf16_f32) (constant S4096x1 .f32 0x00000000#32))
    (broadcastTo S4096x1 (shapeCast S1x1 x9 shapeCasts_S1x1_S1x1) broadcasts_S1x1_S4096x1))

theorem outV_apply (d : FVec Ideal S4096x64 .f32) (x8 : FVec Ideal S64x1 .f32) (x9 : FVec Ideal S1x1 .f32) (y : Fin 4096) :
    outV d x8 x9 (ix2 y (0 : Fin 1))
      = outRow (fun q => d (ix2 y q)) (fun q => x8 (ix2 q (0 : Fin 1))) (x9 (ix2 (0 : Fin 1) (0 : Fin 1))) := by
  unfold outV outRow
  rw [logistic_apply, addf_apply, matmul_plain_apply dot_S4096x64_S64x1_S4096x1_1_0_0_1_n_n rfl none _ _ y (0 : Fin 1),
    broadcastTo_1b_ab_apply, shapeCast_self]
  rfl

/-- The body's stored value is these stages composed. -/
theorem pay1_eq (v40 : FVec Ideal S4096x4 .bf16) (x5 : Vec Ideal S4x32 .f32) (x6 : Vec Ideal S32x64 .f32)
    (x7 : Vec Ideal S1x64 .f32) (x8 : Vec Ideal S64x1 .f32) (x9 : Vec Ideal S1x1 .f32) :
    k0_pay1 (F := Ideal) v40 x5 x6 x7 x8 x9 = outV (decV (siteV v40 x5) x6 x7) x8 x9 := rfl

/-- THE ROW: what the body stores at (y, 0) is the row function of row y of the feature block. -/
theorem pay_apply (x0 : Vec Ideal S4096x512 .f32) (x1 : Vec Ideal S512x64 .f32) (x2 x3 x4 : Vec Ideal S1x64 .f32)
    (x5 : Vec Ideal S4x32 .f32) (x6 : Vec Ideal S32x64 .f32) (x7 : Vec Ideal S1x64 .f32) (x8 : Vec Ideal S64x1 .f32)
    (x9 : Vec Ideal S1x1 .f32) (y : Fin 4096) :
    k0_pay1 (F := Ideal) (k0_pay2 x0 x1 x2 x3 x4) x5 x6 x7 x8 x9 (ix2 y (0 : Fin 1))
      = rowOut (fun k => x0 (ix2 y k)) (fun k j => x1 (ix2 k j)) (fun j => x2 (ix2 (0 : Fin 1) j))
          (fun j => x3 (ix2 (0 : Fin 1) j)) (fun j => x4 (ix2 (0 : Fin 1) j)) (fun p x => x5 (ix2 p x))
          (fun x q => x6 (ix2 x q)) (fun q => x7 (ix2 (0 : Fin 1) q)) (fun q => x8 (ix2 q (0 : Fin 1)))
          (x9 (ix2 (0 : Fin 1) (0 : Fin 1))) := by
  rw [pay1_eq, outV_apply]
  unfold rowOut
  simp only [decV_apply, siteV_apply, pay2_apply]
  rfl

end Cert.KernelRows

end
-- ==== Proof.SpecArray.lean ====
/-
  The row function laid over an array: the result array of n rows, each row's entry the row function of that row of
  the feature array and of the weights read at coordinates. Stated for any number of rows, so that the whole
  131072-row array and a 4096-row block of it are instances of one definition.
-/
import proofs.«172635_j55654186221891_1_alg».proof.Proof.Spec
import Idealize.ShloMosaic.Lib.ValueIdx

noncomputable section

namespace Cert.Spec

open Idealize.ShloMosaic Idealize.ShloMosaic.ValueIdx

/-- Row r of the result is the row function of row r of X. -/
def wholeOut {n : Nat} (X : (⟨2, ![n, 512]⟩ : Shape).Idx → EReal) (W : (⟨2, ![512, 64]⟩ : Shape).Idx → EReal)
    (b g β : (⟨1, ![64]⟩ : Shape).Idx → EReal) (M : (⟨2, ![4, 32]⟩ : Shape).Idx → EReal)
    (W1 : (⟨2, ![32, 64]⟩ : Shape).Idx → EReal) (b1 : (⟨1, ![64]⟩ : Shape).Idx → EReal)
    (W2 : (⟨2, ![64, 1]⟩ : Shape).Idx → EReal) (b2 : (⟨1, ![1]⟩ : Shape).Idx → EReal) :
    (⟨2, ![n, 1]⟩ : Shape).Idx → EReal :=
  fun i => rowOut (fun k => X (ix2 (i 0) k)) (fun k j => W (ix2 k j)) (fun j => b (ix1 j)) (fun j => g (ix1 j))
    (fun j => β (ix1 j)) (fun p x => M (ix2 p x)) (fun x q => W1 (ix2 x q)) (fun q => b1 (ix1 q))
    (fun q => W2 (ix2 q (0 : Fin 1))) (b2 (ix1 (0 : Fin 1)))

end Cert.Spec

end
-- ==== Proof.KernelBlocks.lean ====
/-
  From blocks to the array: after the run the kernel's result array is the row function laid over the 131072 rows.

  Grid point t stages rows 4096·t … 4096·t + 4095 of the feature array (window 0) and every weight array whole (windows
  1 to 9: their block index never moves; five of them are a vector argument viewed as a 1 × n row by a reshape before
  the call), and writes back rows 4096·t … of the result (window 10). What it writes at local row y is the row
  function of row 4096·t + y (the body read at a row), and the 32 points' blocks cover every row once.
-/
import proofs.«172635_j55654186221891_1_alg».proof.Proof.Gen.KernelIdeal.Value
import proofs.«172635_j55654186221891_1_alg».proof.Proof.KernelRows
import proofs.«172635_j55654186221891_1_alg».proof.Proof.SpecArray
import Idealize.ShloMosaic.Lib.StableHlo.Run
import Idealize.ShloMosaic.Lib.ValueLayout

noncomputable section

namespace Cert.KernelBlocks

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array: the row function laid over the rows of the launch contents. -/
abbrev G (c : Dev nD) : S131072x1.Idx → EReal :=
  Cert.Spec.wholeOut (n := 131072) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg8)) (m ((c : Thread nD τ).loc main_arg9))
    (m ((c : Thread nD τ).loc main_arg10)) (m ((c : Thread nD τ).loc main_arg11))

/-- The index maps, decided over the 32 points: the feature window moves with the result window along the rows, and
    no weight window moves. -/
theorem idx_0 : ∀ t : Fin cfg0.N, win0_0.index t (0 : Fin 2) = win0_10.index t (0 : Fin 2) ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (1 : Fin 2) = 0 ∧ win0_10.index t (0 : Fin 2) ≤ 31 :=
  (by decide +kernel : ∀ t : Fin grid0.N, _)

/-- Every block of rows is some point's. -/
theorem idx_onto : ∀ q0 : Fin 32, ∃ t : Fin cfg0.N, win0_10.index t = ![q0.val, 0] :=
  (by decide +kernel : ∀ q0 : Fin 32, ∃ t : Fin grid0.N, win0_10.index t = ![q0.val, 0])

/-! ## The vector arguments as the region finds them: one-row matrices -/

theorem V_v0 (c : Dev nD) : (V m c main_v0 : S1x64.Idx → EReal)
    = shapeCast S1x64 (m ((c : Thread nD τ).loc main_arg2)) shapeCasts_S64_S1x64 := by
  dsimp only [V, hostOps0]; after_results; rfl
theorem V_v1 (c : Dev nD) : (V m c main_v1 : S1x64.Idx → EReal)
    = shapeCast S1x64 (m ((c : Thread nD τ).loc main_arg3)) shapeCasts_S64_S1x64 := by
  dsimp only [V, hostOps0]; after_results; rfl
theorem V_v2 (c : Dev nD) : (V m c main_v2 : S1x64.Idx → EReal)
    = shapeCast S1x64 (m ((c : Thread nD τ).loc main_arg4)) shapeCasts_S64_S1x64 := by
  dsimp only [V, hostOps0]; after_results; rfl
theorem V_v3 (c : Dev nD) : (V m c main_v3 : S1x64.Idx → EReal)
    = shapeCast S1x64 (m ((c : Thread nD τ).loc main_arg9)) shapeCasts_S64_S1x64 := by
  dsimp only [V, hostOps0]; after_results; rfl
theorem V_v4 (c : Dev nD) : (V m c main_v4 : S1x1.Idx → EReal)
    = shapeCast S1x1 (m ((c : Thread nD τ).loc main_arg11)) shapeCasts_S1_S1x1 := by
  dsimp only [V, hostOps0]; after_results; rfl

/-! ## The blocks a point stages, read at coordinates -/

abbrev b0 (c : Dev nD) (t : Fin cfg0.N) : Vec Ideal S4096x512 .f32 := iblk m c 0 t
abbrev b1 (c : Dev nD) (t : Fin cfg0.N) : Vec Ideal S512x64 .f32 := iblk m c 1 t
abbrev b2 (c : Dev nD) (t : Fin cfg0.N) : Vec Ideal S1x64 .f32 := iblk m c 2 t
abbrev b3 (c : Dev nD) (t : Fin cfg0.N) : Vec Ideal S1x64 .f32 := iblk m c 3 t
abbrev b4 (c : Dev nD) (t : Fin cfg0.N) : Vec Ideal S1x64 .f32 := iblk m c 4 t
abbrev b5 (c : Dev nD) (t : Fin cfg0.N) : Vec Ideal S4x32 .f32 := iblk m c 5 t
abbrev b6 (c : Dev nD) (t : Fin cfg0.N) : Vec Ideal S32x64 .f32 := iblk m c 6 t
abbrev b7 (c : Dev nD) (t : Fin cfg0.N) : Vec Ideal S1x64 .f32 := iblk m c 7 t
abbrev b8 (c : Dev nD) (t : Fin cfg0.N) : Vec Ideal S64x1 .f32 := iblk m c 8 t
abbrev b9 (c : Dev nD) (t : Fin cfg0.N) : Vec Ideal S1x1 .f32 := iblk m c 9 t

/-- Local row y of point t's feature block is row 4096·t + y of the feature array. -/
theorem blk0 (c : Dev nD) (t : Fin cfg0.N) (y : Fin 4096) (k : Fin 512) (r : Fin 131072)
    (hr : r.val = win0_10.index t (0 : Fin 2) * 4096 + y.val) :
    b0 m c t (ix2 y k) = m ((c : Thread nD τ).loc main_arg0) (ix2 r k) := by
  obtain ⟨e0, e1⟩ := idx_0 t
  show V m c main_arg0 (((cfg0.win 0).blk t).view.emb (ix2 y k)) = _
  rw [V_main_arg0]
  refine congrArg _ (funext fun a => Fin.ext ?_)
  match a with
  | ⟨0, _⟩ => show win0_0.index t (0 : Fin 2) * 4096 + 1 * y.val = r.val; omega
  | ⟨1, _⟩ => show win0_0.index t (1 : Fin 2) * 512 + 1 * k.val = k.val; omega

theorem blk1 (c : Dev nD) (t : Fin cfg0.N) (i : S512x64.Idx) : b1 m c t i = m ((c : Thread nD τ).loc main_arg1) i := by
  obtain ⟨e0, e1⟩ := idx_1 t
  show V m c main_arg1 (((cfg0.win 1).blk t).view.emb i) = _
  rw [V_main_arg1]
  refine congrArg _ (funext fun a => Fin.ext ?_)
  match a with
  | ⟨0, _⟩ => show win0_1.index t (0 : Fin 2) * 512 + 1 * (i 0).val = (i 0).val; omega
  | ⟨1, _⟩ => show win0_1.index t (1 : Fin 2) * 64 + 1 * (i 1).val = (i 1).val; omega

theorem blk5 (c : Dev nD) (t : Fin cfg0.N) (i : S4x32.Idx) : b5 m c t i = m ((c : Thread nD τ).loc main_arg5) i := by
  obtain ⟨e0, e1⟩ := idx_5 t
  show V m c main_arg5 (((cfg0.win 5).blk t).view.emb i) = _
  rw [V_main_arg5]
  refine congrArg _ (funext fun a => Fin.ext ?_)
  match a with
  | ⟨0, _⟩ => show win0_5.index t (0 : Fin 2) * 4 + 1 * (i 0).val = (i 0).val; omega
  | ⟨1, _⟩ => show win0_5.index t (1 : Fin 2) * 32 + 1 * (i 1).val = (i 1).val; omega

theorem blk6 (c : Dev nD) (t : Fin cfg0.N) (i : S32x64.Idx) : b6 m c t i = m ((c : Thread nD τ).loc main_arg8) i := by
  obtain ⟨e0, e1⟩ := idx_6 t
  show V m c main_arg8 (((cfg0.win 6).blk t).view.emb i) = _
  rw [V_main_arg8]
  refine congrArg _ (funext fun a => Fin.ext ?_)
  match a with
  | ⟨0, _⟩ => show win0_6.index t (0 : Fin 2) * 32 + 1 * (i 0).val = (i 0).val; omega
  | ⟨1, _⟩ => show win0_6.index t (1 : Fin 2) * 64 + 1 * (i 1).val = (i 1).val; omega

theorem blk8 (c : Dev nD) (t : Fin cfg0.N) (i : S64x1.Idx) : b8 m c t i = m ((c : Thread nD τ).loc main_arg10) i := by
  obtain ⟨e0, e1⟩ := idx_8 t
  show V m c main_arg10 (((cfg0.win 8).blk t).view.emb i) = _
  rw [V_main_arg10]
  refine congrArg _ (funext fun a => Fin.ext ?_)
  match a with
  | ⟨0, _⟩ => show win0_8.index t (0 : Fin 2) * 64 + 1 * (i 0).val = (i 0).val; omega
  | ⟨1, _⟩ => show win0_8.index t (1 : Fin 2) * 1 + 1 * (i 1).val = (i 1).val; omega

theorem blk2 (c : Dev nD) (t : Fin cfg0.N) (j : Fin 64) :
    b2 m c t (ix2 (0 : Fin 1) j) = m ((c : Thread nD τ).loc main_arg2) (ix1 j) := by
  obtain ⟨e0, e1⟩ := idx_2 t
  have hemb : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 64 + 1 * j.val = j.val; omega
  show V m c main_v0 (((cfg0.win 2).blk t).view.emb (ix2 (0 : Fin 1) j)) = _
  rw [hemb]
  exact (congrFun (V_v0 m c) _).trans (shapeCast_a_1a_apply _ _ 0 j)

theorem blk3 (c : Dev nD) (t : Fin cfg0.N) (j : Fin 64) :
    b3 m c t (ix2 (0 : Fin 1) j) = m ((c : Thread nD τ).loc main_arg3) (ix1 j) := by
  obtain ⟨e0, e1⟩ := idx_3 t
  have hemb : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 64 + 1 * j.val = j.val; omega
  show V m c main_v1 (((cfg0.win 3).blk t).view.emb (ix2 (0 : Fin 1) j)) = _
  rw [hemb]
  exact (congrFun (V_v1 m c) _).trans (shapeCast_a_1a_apply _ _ 0 j)

theorem blk4 (c : Dev nD) (t : Fin cfg0.N) (j : Fin 64) :
    b4 m c t (ix2 (0 : Fin 1) j) = m ((c : Thread nD τ).loc main_arg4) (ix1 j) := by
  obtain ⟨e0, e1⟩ := idx_4 t
  have hemb : ((cfg0.win 4).blk t).view.emb (ix2 (0 : Fin 1) j) = ix2 (0 : Fin 1) j := by
    funext a; apply Fin.ext
    match a with
    | ⟨0, _⟩ => show win0_4.index t (0 : Fin 2) * 1 + 1 * 0 = 0; omega
    | ⟨1, _⟩ => show win0_4.index t (1 : Fin 2) * 64 + 1 * j.val = j.val; omega
  show V m c main_v2 (((cfg0.win 4).blk t).view.emb (ix2 (0 : Fin 1) j)) = _
  rw [hemb]
  exact (congrFun (V_v2 m c) _).trans (shapeCast_a_1a_apply _ _ 0 j)

theorem blk7 (c : Dev nD) (t : Fin cfg0.N) (j : Fin 64) :
    b7 m c t (ix2 (0 : Fin 1) j) = m ((c : Thread nD τ).loc main_arg9) (ix1 j) := by
  obtain ⟨e0, e1⟩ := idx_7 t
  have hemb : ((cfg0.win 7).blk t).view.emb (ix2 (0 : Fin 1) j) = ix2 (0 : Fin 1) j := by
    funext a; apply Fin.ext
    match a with
    | ⟨0, _⟩ => show win0_7.index t (0 : Fin 2) * 1 + 1 * 0 = 0; omega
    | ⟨1, _⟩ => show win0_7.index t (1 : Fin 2) * 64 + 1 * j.val = j.val; omega
  show V m c main_v3 (((cfg0.win 7).blk t).view.emb (ix2 (0 : Fin 1) j)) = _
  rw [hemb]
  exact (congrFun (V_v3 m c) _).trans (shapeCast_a_1a_apply _ _ 0 j)

theorem blk9 (c : Dev nD) (t : Fin cfg0.N) :
    b9 m c t (ix2 (0 : Fin 1) (0 : Fin 1)) = m ((c : Thread nD τ).loc main_arg11) (ix1 (0 : Fin 1)) := by
  obtain ⟨e0, e1⟩ := idx_9 t
  have hemb : ((cfg0.win 9).blk t).view.emb (ix2 (0 : Fin 1) (0 : Fin 1)) = ix2 (0 : Fin 1) (0 : Fin 1) := by
    funext a; apply Fin.ext
    match a with
    | ⟨0, _⟩ => show win0_9.index t (0 : Fin 2) * 1 + 1 * 0 = 0; omega
    | ⟨1, _⟩ => show win0_9.index t (1 : Fin 2) * 1 + 1 * 0 = 0; omega
  show V m c main_v4 (((cfg0.win 9).blk t).view.emb (ix2 (0 : Fin 1) (0 : Fin 1))) = _
  rw [hemb]
  exact (congrFun (V_v4 m c) _).trans (shapeCast_a_1a_apply _ _ 0 0)

/-! ## What a point writes back -/

/-- The body's stored value at an index of the block: the row function of that local row. -/
theorem pay_at (x0 : Vec Ideal S4096x512 .f32) (x1 : Vec Ideal S512x64 .f32) (x2 x3 x4 : Vec Ideal S1x64 .f32)
    (x5 : Vec Ideal S4x32 .f32) (x6 : Vec Ideal S32x64 .f32) (x7 : Vec Ideal S1x64 .f32) (x8 : Vec Ideal S64x1 .f32)
    (x9 : Vec Ideal S1x1 .f32) (j : S4096x1.Idx) :
    k0_pay1 (F := Ideal) (k0_pay2 x0 x1 x2 x3 x4) x5 x6 x7 x8 x9 j
      = Cert.Spec.rowOut (fun k => x0 (ix2 (j 0) k)) (fun k j => x1 (ix2 k j)) (fun j => x2 (ix2 (0 : Fin 1) j))
          (fun j => x3 (ix2 (0 : Fin 1) j)) (fun j => x4 (ix2 (0 : Fin 1) j)) (fun p x => x5 (ix2 p x))
          (fun x q => x6 (ix2 x q)) (fun q => x7 (ix2 (0 : Fin 1) q)) (fun q => x8 (ix2 q (0 : Fin 1)))
          (x9 (ix2 (0 : Fin 1) (0 : Fin 1))) := by
  have e : j = ix2 (j 0) (0 : Fin 1) := by
    funext a; apply Fin.ext
    match a with
    | ⟨0, _⟩ => rfl
    | ⟨1, _⟩ => exact Nat.lt_one_iff.mp (j 1).isLt
  exact (congrArg (k0_pay1 (F := Ideal) (k0_pay2 x0 x1 x2 x3 x4) x5 x6 x7 x8 x9) e).trans
    (Cert.KernelRows.pay_apply x0 x1 x2 x3 x4 x5 x6 x7 x8 x9 (j 0))

/-- WHAT POINT t WRITES BACK is block t of the result array G. -/
theorem flushed_eq (c : Dev nD) (t : Fin cfg0.N) :
    (dats m 0 c).flushed 10 t = ((cfg0.win 10).blk t).view.read (Elt Ideal) (G m c) := by
  rw [flushed10]
  unfold out0_10
  rw [View.canon_unit_zero hz]
  simp only [View.ld_unit_zero (S := S4096x512) hz, View.ld_unit_zero (S := S512x64) hz, View.ld_unit_zero (S := S1x64) hz,
    View.ld_unit_zero (S := S4x32) hz, View.ld_unit_zero (S := S32x64) hz, View.ld_unit_zero (S := S64x1) hz,
    View.ld_unit_zero (S := S1x1) hz]
  funext j
  show k0_pay1 (F := Ideal) (k0_pay2 (b0 m c t) (b1 m c t) (b2 m c t) (b3 m c t) (b4 m c t)) (b5 m c t) (b6 m c t)
      (b7 m c t) (b8 m c t) (b9 m c t) j = G m c (((cfg0.win 10).blk t).view.emb j)
  refine (pay_at (b0 m c t) (b1 m c t) (b2 m c t) (b3 m c t) (b4 m c t) (b5 m c t) (b6 m c t) (b7 m c t) (b8 m c t)
    (b9 m c t) j).trans ?_
  have hr : ((((cfg0.win 10).blk t).view.emb j) 0).val = win0_10.index t (0 : Fin 2) * 4096 + (j 0).val := by
    show win0_10.index t (0 : Fin 2) * 4096 + 1 * (j 0).val = _
    omega
  show Cert.Spec.rowOut _ _ _ _ _ _ _ _ _ _ = Cert.Spec.rowOut _ _ _ _ _ _ _ _ _ _
  congr 1
  · exact funext fun k => blk0 m c t (j 0) k _ hr
  · exact funext fun k => funext fun q => blk1 m c t (ix2 k q)
  · exact funext fun q => blk2 m c t q
  · exact funext fun q => blk3 m c t q
  · exact funext fun q => blk4 m c t q
  · exact funext fun p => funext fun x => blk5 m c t (ix2 p x)
  · exact funext fun x => funext fun q => blk6 m c t (ix2 x q)
  · exact funext fun q => blk7 m c t q
  · exact funext fun q => blk8 m c t (ix2 q (0 : Fin 1))
  · exact blk9 m c t

/-! ## The cover and the array after the run -/

/-- An index of the result array is in point t's block iff each coordinate is in the block's range on its axis. -/
theorem mem_blk (t : Fin cfg0.N) (i : S131072x1.Idx) :
    i ∈ ((cfg0.win 10).blk t).view.set ↔ ∀ a : Fin 2, win0_10.index t a * S4096x1.size a ≤ (i a).val
      ∧ (i a).val < win0_10.index t a * S4096x1.size a + S4096x1.size a := by
  show i ∈ ((View.whole main_v5).slice (win0_10.rect t)).set ↔ _
  rw [View.set_slice_whole, Rect.mem_set_unit]
  exact Iff.rfl

/-- Every row is in the block of the point 4096 rows wide that holds it. -/
theorem cover (i : S131072x1.Idx) :
    ∃ t : Fin cfg0.N, (cfg0.win 10).flush t = true ∧ i ∈ ((cfg0.win 10).blk t).view.set := by
  have hi0 : (i 0).val < 131072 := (i 0).isLt
  have hi1 : (i 1).val < 1 := (i 1).isLt
  obtain ⟨t, ht⟩ := idx_onto ⟨(i 0).val / 4096, by omega⟩
  have q0 : win0_10.index t (0 : Fin 2) = (i 0).val / 4096 := congrFun ht 0
  have q1 : win0_10.index t (1 : Fin 2) = 0 := congrFun ht 1
  refine ⟨t, flush0_10 t, ?_⟩
  rw [mem_blk]
  intro a
  match a with
  | ⟨0, _⟩ =>
    show win0_10.index t (0 : Fin 2) * 4096 ≤ (i 0).val ∧ (i 0).val < win0_10.index t (0 : Fin 2) * 4096 + 4096
    omega
  | ⟨1, _⟩ =>
    show win0_10.index t (1 : Fin 2) * 1 ≤ (i 1).val ∧ (i 1).val < win0_10.index t (1 : Fin 2) * 1 + 1
    omega

/-- THE ARRAY after the run is G. -/
theorem final (c : Dev nD) : (dats m 0 c).arrAt 10 cfg0.N = G m c :=
  (dats m 0 c).arrAt_eq_of_cover 10 (G m c) (fun t _ => flushed_eq m c t) cover

/-- The kernel's run: the result buffer ends at G of the launch contents, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (run_blocks m ρ)

end Cert.KernelBlocks

end
-- ==== Proof.RefStages.lean ====
/-
  The reference's live chain, stage by stage, as pure functions of the argument arrays.

  The reference computes, for every one of its 131072 rows: the encoder's hidden row h = max(x·W + b, 0) (64 entries),
  its mean μ and its biased variance σ² (both divisions by 64; the variance's divisor is spelt 64 − ddof with ddof = 0
  and guarded by a comparison 64 − ddof > 0 that selects the quotient), the normalised row
  ((h − μ) / sqrt(σ² + ε)) · g + β, its first four entries (site 0 of the 16 × 4 view) contracted with the 4 × 32
  site-0 tensor, the decoder's hidden row max(s·W₁ + b₁, 0), and the logistic 1 / (1 + exp(−(d·W₂ + b₂))).
  Every middle-site and last-site contraction of the loop is overwritten before it is read, so none of them is a
  stage here: the result does not depend on them.
-/
import proofs.«172635_j55654186221891_1_alg».proof.Proof.Gen.ReferenceIdeal

noncomputable section

namespace Cert.RefStages

open Idealize.ShloMosaic Cert.ReferenceIdeal Cert.ReferenceIdeal.Gen

variable {F : FTy → Type} [FloatOps F]

/-- The maximum with a broadcast zero, on a 131072 × 64 array. -/
def relu64 (x : FVec F S131072x64 .f32) : FVec F S131072x64 .f32 :=
  maximumf x (broadcastInDim S131072x64 ![] bcast_S_S131072x64 (constant S_ .f32 0x00000000#32))

/-- A length-64 vector laid over every row. -/
def overRows (v : FVec F S64 .f32) : FVec F S131072x64 .f32 :=
  broadcastInDim S131072x64 ![0, 1] bcast_S1x64_S131072x64_0_1 (broadcastInDim S1x64 ![1] bcast_S64_S1x64_1 v)

/-- A column laid over the 64 entries of its row. -/
def overCols (v : FVec F S131072x1 .f32) : FVec F S131072x64 .f32 :=
  broadcastInDim S131072x64 ![0, 1] bcast_S131072x1_S131072x64_0_1 v

/-- A scalar laid over a column. -/
def splatCol (v : FVec F S_ .f32) : FVec F S131072x1 .f32 :=
  broadcastInDim S131072x1 ![] bcast_S_S131072x1 v

/-- The sum of each row, as a column: the initial value zero plus the row's 64 entries. -/
def rowSum (h : FVec F S131072x64 .f32) : FVec F S131072x1 .f32 :=
  broadcastInDim S131072x1 ![0] bcast_S131072_S131072x1_0
    (Host.reduceAdd h (constant S_ .f32 0x00000000#32) reducesTo_S131072x64_S131072_d1 h_S_)

/-- The encoder's hidden rows: max(x·W + b, 0). -/
def hidden (X : FVec F S131072x512 .f32) (W : FVec F S512x64 .f32) (b : FVec F S64 .f32) : FVec F S131072x64 .f32 :=
  relu64 (addf (Host.dotGeneral dot_S131072x512_S512x64_S131072x64_1_0_0_1_n_n none X W) (overRows b))

/-- Each row's mean: its sum over 64. -/
def rowMean (h : FVec F S131072x64 .f32) : FVec F S131072x1 .f32 :=
  Host.divf (rowSum h) (splatCol (constant S_ .f32 0x42800000#32))

/-- Each row less its mean. -/
def centered (h : FVec F S131072x64 .f32) : FVec F S131072x64 .f32 :=
  subf h (overCols (rowMean h))

/-- The variance's divisor as the program spells it: 64 less the (zero) degrees-of-freedom correction. -/
def varDivisor : FVec F S_ .f32 :=
  subf (constant S_ .f32 0x42800000#32) (sitofp .f32 (constantI S_ 32 0#32))

/-- Each row's biased variance: the sum of the squared centred entries over the divisor, selected where the divisor
    is positive (else the program's not-a-number word). -/
def rowVar (h : FVec F S131072x64 .f32) : FVec F S131072x1 .f32 :=
  select (broadcastInDim S131072x1 ![] bcast_S_S131072x1 (cmpf .ogt (varDivisor (F := F)) (constant S_ .f32 0x00000000#32)))
    (Host.divf (rowSum (mulf (centered h) (centered h))) (splatCol varDivisor))
    (splatCol (id (constant S_ .f32 0x7FC00000#32)))

/-- The layer-normalised rows: ((h − μ) / sqrt(σ² + ε)) · g + β. -/
def normed (h : FVec F S131072x64 .f32) (g β : FVec F S64 .f32) : FVec F S131072x64 .f32 :=
  addf (mulf (Host.divf (centered h)
      (overCols (Host.sqrt (addf (rowVar h) (splatCol (constant S_ .f32 0x3727C5AC#32))))))
    (overRows g)) (overRows β)

/-- Site 0 of the 16 × 4 view of each row: its first four entries. -/
def site0 (y : FVec F S131072x64 .f32) : FVec F S131072x4 .f32 :=
  shapeCast S131072x4
    (extractStridedSlice S131072x1x4 ![0, 0, 0] (shapeCast S131072x16x4 y shapeCasts_S131072x64_S131072x16x4)
      slices_S131072x16x4_S131072x1x4_0_0_0)
    shapeCasts_S131072x1x4_S131072x4

/-- The site-0 contraction: the four entries against the 4 × 32 tensor. -/
def contracted (e : FVec F S131072x4 .f32) (M : FVec F S4x32 .f32) : FVec F S131072x32 .f32 :=
  Host.dotGeneral dot_S131072x4_S4x32_S131072x32_1_0_0_1_n_n none e M

/-- The decoder's hidden rows: max(s·W₁ + b₁, 0). -/
def decHidden (s : FVec F S131072x32 .f32) (W1 : FVec F S32x64 .f32) (b1 : FVec F S64 .f32) : FVec F S131072x64 .f32 :=
  relu64 (addf (Host.dotGeneral dot_S131072x32_S32x64_S131072x64_1_0_0_1_n_n none s W1) (overRows b1))

/-- The decoder's output before the logistic: d·W₂ + b₂. -/
def decOut (d : FVec F S131072x64 .f32) (W2 : FVec F S64x1 .f32) (b2 : FVec F S1 .f32) : FVec F S131072x1 .f32 :=
  addf (Host.dotGeneral dot_S131072x64_S64x1_S131072x1_1_0_0_1_n_n none d W2)
    (broadcastInDim S131072x1 ![0, 1] bcast_S1x1_S131072x1_0_1 (broadcastInDim S1x1 ![1] bcast_S1_S1x1_1 b2))

/-- The logistic as the program spells it: 1 / (1 + exp(−o)). -/
def logisticCol (o : FVec F S131072x1 .f32) : FVec F S131072x1 .f32 :=
  Host.divf (splatCol (constant S_ .f32 0x3F800000#32))
    (addf (splatCol (constant S_ .f32 0x3F800000#32)) (Host.exp (Host.negf o)))

/-- The reference's result as a function of the ten argument arrays it depends on. -/
def result (X : FVec F S131072x512 .f32) (W : FVec F S512x64 .f32) (b g β : FVec F S64 .f32) (M : FVec F S4x32 .f32)
    (W1 : FVec F S32x64 .f32) (b1 : FVec F S64 .f32) (W2 : FVec F S64x1 .f32) (b2 : FVec F S1 .f32) :
    FVec F S131072x1 .f32 :=
  logisticCol (decOut (decHidden (contracted (site0 (normed (hidden X W b) g β)) M) W1 b1) W2 b2)

end Cert.RefStages

end
-- ==== Proof.RefOps.lean ====
import proofs.«172635_j55654186221891_1_alg».proof.Proof.Gen.ReferenceIdeal
import Idealize.ShloMosaic.Lib.StableHlo.Run

/-!
  The reference program's @main as lists of its host operations, one list per window of the printed program,
  in program order. A call of a module-local function is its body's operations in place: each value of the body at the
  buffer the call's record gives it, each parameter at the buffer of the call's argument, each operation's function at
  the tensor types of its operands and result.
-/

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

/-- The 84 operations of window 0 of @main (main_part0), in order. -/
abbrev ops0 : List (HloOp τ sig (Elt F)) :=
  [ binary main_arg0 main_arg1 main_v0 ((fun l r => Host.dotGeneral dot_S131072x512_S512x64_S131072x64_1_0_0_1_n_n none l r) : (⟨S131072x512, .f32⟩ : BufTy).Contents (Elt F) → (⟨S512x64, .f32⟩ : BufTy).Contents (Elt F) → (⟨S131072x64, .f32⟩ : BufTy).Contents (Elt F)),
    unary main_arg2 main_v1 (broadcastInDim S1x64 ![1] bcast_S64_S1x64_1 : (⟨S64, .f32⟩ : BufTy).Contents (Elt F) → (⟨S1x64, .f32⟩ : BufTy).Contents (Elt F)),
    unary main_v1 main_v2 (broadcastInDim S131072x64 ![0, 1] bcast_S1x64_S131072x64_0_1 : (⟨S1x64, .f32⟩ : BufTy).Contents (Elt F) → (⟨S131072x64, .f32⟩ : BufTy).Contents (Elt F)),
    binary main_v0 main_v2 main_v3 (addf : (⟨S131072x64, .f32⟩ : BufTy).Contents (Elt F) → (⟨S131072x64, .f32⟩ : BufTy).Contents (Elt F) → (⟨S131072x64, .f32⟩ : BufTy).Contents (Elt F)),
    nullary main_call0_cst (constant S_ .f32 0x00000000#32),
    unary main_call0_cst main_call0_v0 (broadcastInDim S131072x64 ![] bcast_S_S131072x64 : (⟨S_, .f32⟩ : BufTy).Contents (Elt F) → (⟨S131072x64, .f32⟩ : BufTy).Contents (Elt F)),
    binary main_v3 main_call0_v0 main_v4 (maximumf : (⟨S131072x64, .f32⟩ : BufTy).Contents (Elt F) → (⟨S131072x64, .f32⟩ : BufTy).Contents (Elt F) → (⟨S131072x64, .f32⟩ : BufTy).Contents (Elt F)),
    nullary main_cst (constant S_ .f32 0x00000000#32),
    binary main_v4 main_cst main_v5 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_v5 main_v6 (broadcastInDim S131072x1 ![0] bcast_S131072_S131072x1_0 : (⟨S131072, .f32⟩ : BufTy).Contents (Elt F) → (⟨S131072x1, .f32⟩ : BufTy).Contents (Elt F)),
    nullary main_cst_0 (constant S_ .f32 0x42800000#32),
    unary main_cst_0 main_v7 (broadcastInDim S131072x1 ![] bcast_S_S131072x1 : (⟨S_, .f32⟩ : BufTy).Contents (Elt F) → (⟨S131072x1, .f32⟩ : BufTy).Contents (Elt F)),
    binary main_v6 main_v7 main_v8 (Host.divf : (⟨S131072x1, .f32⟩ : BufTy).Contents (Elt F) → (⟨S131072x1, .f32⟩ : BufTy).Contents (Elt F) → (⟨S131072x1, .f32⟩ : BufTy).Contents (Elt F)),
    nullary main_c (constantI S_ 32 0#32),
    nullary main_call1_cst (constant S_ .f32 0x00000000#32),
    binary main_v4 main_call1_cst main_call1_v0 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_call1_v0 main_call1_v1 (broadcastInDim S131072x1 ![0] bcast_S131072_S131072x1_0 : (⟨S131072, .f32⟩ : BufTy).Contents (Elt F) → (⟨S131072x1, .f32⟩ : BufTy).Contents (Elt F)),
    nullary main_call1_cst_0 (constant S_ .f32 0x42800000#32),
    unary main_call1_cst_0 main_call1_v2 (broadcastInDim S131072x1 ![] bcast_S_S131072x1 : (⟨S_, .f32⟩ : BufTy).Contents (Elt F) → (⟨S131072x1, .f32⟩ : BufTy).Contents (Elt F)),
    binary main_call1_v1 main_call1_v2 main_call1_v3 (Host.divf : (⟨S131072x1, .f32⟩ : BufTy).Contents (Elt F) → (⟨S131072x1, .f32⟩ : BufTy).Contents (Elt F) → (⟨S131072x1, .f32⟩ : BufTy).Contents (Elt F)),
    unary main_call1_v3 main_call1_v4 (broadcastInDim S131072x64 ![0, 1] bcast_S131072x1_S131072x64_0_1 : (⟨S131072x1, .f32⟩ : BufTy).Contents (Elt F) → (⟨S131072x64, .f32⟩ : BufTy).Contents (Elt F)),
    binary main_v4 main_call1_v4 main_call1_v5 (subf : (⟨S131072x64, .f32⟩ : BufTy).Contents (Elt F) → (⟨S131072x64, .f32⟩ : BufTy).Contents (Elt F) → (⟨S131072x64, .f32⟩ : BufTy).Contents (Elt F)),
    binary main_call1_v5 main_call1_v5 main_call1_v6 (mulf : (⟨S131072x64, .f32⟩ : BufTy).Contents (Elt F) → (⟨S131072x64, .f32⟩ : BufTy).Contents (Elt F) → (⟨S131072x64, .f32⟩ : BufTy).Contents (Elt F)),
    unary main_c main_call1_v7 (sitofp .f32 : (⟨S_, .i32⟩ : BufTy).Contents (Elt F) → (⟨S_, .f32⟩ : BufTy).Contents (Elt F)),
    nullary main_call1_cst_1 (constant S_ .f32 0x42800000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_call1_v9 main_call1_v10 (broadcastInDim S131072x1 ![0] bcast_S131072_S131072x1_0 : (⟨S131072, .f32⟩ : BufTy).Contents (Elt F) → (⟨S131072x1, .f32⟩ : BufTy).Contents (Elt F)),
    unary main_call1_v8 main_call1_v11 (broadcastInDim S131072x1 ![] bcast_S_S131072x1 : (⟨S_, .f32⟩ : BufTy).Contents (Elt F) → (⟨S131072x1, .f32⟩ : BufTy).Contents (Elt F)),
    binary main_call1_v10 main_call1_v11 main_call1_v12 (Host.divf : (⟨S131072x1, .f32⟩ : BufTy).Contents (Elt F) → (⟨S131072x1, .f32⟩ : BufTy).Contents (Elt F) → (⟨S131072x1, .f32⟩ : BufTy).Contents (Elt F)),
    nullary main_call1_cst_3 (constant S_ .f32 0x00000000#32),
    binary main_call1_v8 main_call1_cst_3 main_call1_v13 (cmpf .ogt : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 (broadcastInDim S131072x1 ![] bcast_S_S131072x1 : (⟨S_, .f32⟩ : BufTy).Contents (Elt F) → (⟨S131072x1, .f32⟩ : BufTy).Contents (Elt F)),
    ternary main_call1_v13 main_call1_v12 main_call1_call0_v1 main_v9 ((fun p a b => select (broadcastInDim S131072x1 ![] bcast_S_S131072x1 p) a b) : (⟨S_, .i1⟩ : BufTy).Contents (Elt F) → (⟨S131072x1, .f32⟩ : BufTy).Contents (Elt F) → (⟨S131072x1, .f32⟩ : BufTy).Contents (Elt F) → (⟨S131072x1, .f32⟩ : BufTy).Contents (Elt F)),
    unary main_v8 main_v10 (broadcastInDim S131072x64 ![0, 1] bcast_S131072x1_S131072x64_0_1 : (⟨S131072x1, .f32⟩ : BufTy).Contents (Elt F) → (⟨S131072x64, .f32⟩ : BufTy).Contents (Elt F)),
    binary main_v4 main_v10 main_v11 (subf : (⟨S131072x64, .f32⟩ : BufTy).Contents (Elt F) → (⟨S131072x64, .f32⟩ : BufTy).Contents (Elt F) → (⟨S131072x64, .f32⟩ : BufTy).Contents (Elt F)),
    nullary main_cst_1 (constant S_ .f32 0x3727C5AC#32),
    unary main_cst_1 main_v12 (broadcastInDim S131072x1 ![] bcast_S_S131072x1 : (⟨S_, .f32⟩ : BufTy).Contents (Elt F) → (⟨S131072x1, .f32⟩ : BufTy).Contents (Elt F)),
    binary main_v9 main_v12 main_v13 (addf : (⟨S131072x1, .f32⟩ : BufTy).Contents (Elt F) → (⟨S131072x1, .f32⟩ : BufTy).Contents (Elt F) → (⟨S131072x1, .f32⟩ : BufTy).Contents (Elt F)),
    unary main_v13 main_v14 (Host.sqrt : (⟨S131072x1, .f32⟩ : BufTy).Contents (Elt F) → (⟨S131072x1, .f32⟩ : BufTy).Contents (Elt F)),
    unary main_v14 main_v15 (broadcastInDim S131072x64 ![0, 1] bcast_S131072x1_S131072x64_0_1 : (⟨S131072x1, .f32⟩ : BufTy).Contents (Elt F) → (⟨S131072x64, .f32⟩ : BufTy).Contents (Elt F)),
    binary main_v11 main_v15 main_v16 (Host.divf : (⟨S131072x64, .f32⟩ : BufTy).Contents (Elt F) → (⟨S131072x64, .f32⟩ : BufTy).Contents (Elt F) → (⟨S131072x64, .f32⟩ : BufTy).Contents (Elt F)),
    unary main_arg3 main_v17 (broadcastInDim S1x64 ![1] bcast_S64_S1x64_1 : (⟨S64, .f32⟩ : BufTy).Contents (Elt F) → (⟨S1x64, .f32⟩ : BufTy).Contents (Elt F)),
    unary main_v17 main_v18 (broadcastInDim S131072x64 ![0, 1] bcast_S1x64_S131072x64_0_1 : (⟨S1x64, .f32⟩ : BufTy).Contents (Elt F) → (⟨S131072x64, .f32⟩ : BufTy).Contents (Elt F)),
    binary main_v16 main_v18 main_v19 (mulf : (⟨S131072x64, .f32⟩ : BufTy).Contents (Elt F) → (⟨S131072x64, .f32⟩ : BufTy).Contents (Elt F) → (⟨S131072x64, .f32⟩ : BufTy).Contents (Elt F)),
    unary main_arg4 main_v20 (broadcastInDim S1x64 ![1] bcast_S64_S1x64_1 : (⟨S64, .f32⟩ : BufTy).Contents (Elt F) → (⟨S1x64, .f32⟩ : BufTy).Contents (Elt F)),
    unary main_v20 main_v21 (broadcastInDim S131072x64 ![0, 1] bcast_S1x64_S131072x64_0_1 : (⟨S1x64, .f32⟩ : BufTy).Contents (Elt F) → (⟨S131072x64, .f32⟩ : BufTy).Contents (Elt F)),
    binary main_v19 main_v21 main_v22 (addf : (⟨S131072x64, .f32⟩ : BufTy).Contents (Elt F) → (⟨S131072x64, .f32⟩ : BufTy).Contents (Elt F) → (⟨S131072x64, .f32⟩ : BufTy).Contents (Elt F)),
    reshape main_v22 main_v23 rfl shapeCasts_S131072x64_S131072x16x4,
    unary main_v23 main_v24 ((extractStridedSlice S131072x1x4 ![0, 0, 0] · slices_S131072x16x4_S131072x1x4_0_0_0) : (⟨S131072x16x4, .f32⟩ : BufTy).Contents (Elt F) → (⟨S131072x1x4, .f32⟩ : BufTy).Contents (Elt F)),
    reshape main_v24 main_v25 rfl shapeCasts_S131072x1x4_S131072x4,
    binary main_v25 main_arg5 main_v26 ((fun l r => Host.dotGeneral dot_S131072x4_S4x32_S131072x32_1_0_0_1_n_n none l r) : (⟨S131072x4, .f32⟩ : BufTy).Contents (Elt F) → (⟨S4x32, .f32⟩ : BufTy).Contents (Elt F) → (⟨S131072x32, .f32⟩ : BufTy).Contents (Elt F)),
    unary main_arg6 main_v27 ((extractStridedSlice S1x32x4x32 ![0, 0, 0, 0] · slices_S14x32x4x32_S1x32x4x32_0_0_0_0) : (⟨S14x32x4x32, .f32⟩ : BufTy).Contents (Elt F) → (⟨S1x32x4x32, .f32⟩ : BufTy).Contents (Elt F)),
    reshape main_v27 main_v28 rfl shapeCasts_S1x32x4x32_S32x4x32,
    binary main_v26 main_v28 main_v29 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v30 ((extractStridedSlice S131072x1x4 ![0, 1, 0] · slices_S131072x16x4_S131072x1x4_0_1_0) : (⟨S131072x16x4, .f32⟩ : BufTy).Contents (Elt F) → (⟨S131072x1x4, .f32⟩ : BufTy).Contents (Elt F)),
    reshape main_v30 main_v31 rfl shapeCasts_S131072x1x4_S131072x4,
    binary main_v29 main_v31 main_v32 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v33 ((extractStridedSlice S1x32x4x32 ![1, 0, 0, 0] · slices_S14x32x4x32_S1x32x4x32_1_0_0_0) : (⟨S14x32x4x32, .f32⟩ : BufTy).Contents (Elt F) → (⟨S1x32x4x32, .f32⟩ : BufTy).Contents (Elt F)),
    reshape main_v33 main_v34 rfl shapeCasts_S1x32x4x32_S32x4x32,
    binary main_v26 main_v34 main_v35 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v36 ((extractStridedSlice S131072x1x4 ![0, 2, 0] · slices_S131072x16x4_S131072x1x4_0_2_0) : (⟨S131072x16x4, .f32⟩ : BufTy).Contents (Elt F) → (⟨S131072x1x4, .f32⟩ : BufTy).Contents (Elt F)),
    reshape main_v36 main_v37 rfl shapeCasts_S131072x1x4_S131072x4,
    binary main_v35 main_v37 main_v38 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v39 ((extractStridedSlice S1x32x4x32 ![2, 0, 0, 0] · slices_S14x32x4x32_S1x32x4x32_2_0_0_0) : (⟨S14x32x4x32, .f32⟩ : BufTy).Contents (Elt F) → (⟨S1x32x4x32, .f32⟩ : BufTy).Contents (Elt F)),
    reshape main_v39 main_v40 rfl shapeCasts_S1x32x4x32_S32x4x32,
    binary main_v26 main_v40 main_v41 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v42 ((extractStridedSlice S131072x1x4 ![0, 3, 0] · slices_S131072x16x4_S131072x1x4_0_3_0) : (⟨S131072x16x4, .f32⟩ : BufTy).Contents (Elt F) → (⟨S131072x1x4, .f32⟩ : BufTy).Contents (Elt F)),
    reshape main_v42 main_v43 rfl shapeCasts_S131072x1x4_S131072x4,
    binary main_v41 main_v43 main_v44 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v45 ((extractStridedSlice S1x32x4x32 ![3, 0, 0, 0] · slices_S14x32x4x32_S1x32x4x32_3_0_0_0) : (⟨S14x32x4x32, .f32⟩ : BufTy).Contents (Elt F) → (⟨S1x32x4x32, .f32⟩ : BufTy).Contents (Elt F)),
    reshape main_v45 main_v46 rfl shapeCasts_S1x32x4x32_S32x4x32,
    binary main_v26 main_v46 main_v47 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v48 ((extractStridedSlice S131072x1x4 ![0, 4, 0] · slices_S131072x16x4_S131072x1x4_0_4_0) : (⟨S131072x16x4, .f32⟩ : BufTy).Contents (Elt F) → (⟨S131072x1x4, .f32⟩ : BufTy).Contents (Elt F)),
    reshape main_v48 main_v49 rfl shapeCasts_S131072x1x4_S131072x4,
    binary main_v47 main_v49 main_v50 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v51 ((extractStridedSlice S1x32x4x32 ![4, 0, 0, 0] · slices_S14x32x4x32_S1x32x4x32_4_0_0_0) : (⟨S14x32x4x32, .f32⟩ : BufTy).Contents (Elt F) → (⟨S1x32x4x32, .f32⟩ : BufTy).Contents (Elt F)),
    reshape main_v51 main_v52 rfl shapeCasts_S1x32x4x32_S32x4x32,
    binary main_v26 main_v52 main_v53 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v54 ((extractStridedSlice S131072x1x4 ![0, 5, 0] · slices_S131072x16x4_S131072x1x4_0_5_0) : (⟨S131072x16x4, .f32⟩ : BufTy).Contents (Elt F) → (⟨S131072x1x4, .f32⟩ : BufTy).Contents (Elt F)),
    reshape main_v54 main_v55 rfl shapeCasts_S131072x1x4_S131072x4 ]

/-- The 60 operations of window 1 of @main (main_part1), in order. -/
abbrev ops1 : List (HloOp τ sig (Elt F)) :=
  [ binary main_v53 main_v55 main_v56 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v57 ((extractStridedSlice S1x32x4x32 ![5, 0, 0, 0] · slices_S14x32x4x32_S1x32x4x32_5_0_0_0) : (⟨S14x32x4x32, .f32⟩ : BufTy).Contents (Elt F) → (⟨S1x32x4x32, .f32⟩ : BufTy).Contents (Elt F)),
    reshape main_v57 main_v58 rfl shapeCasts_S1x32x4x32_S32x4x32,
    binary main_v26 main_v58 main_v59 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v60 ((extractStridedSlice S131072x1x4 ![0, 6, 0] · slices_S131072x16x4_S131072x1x4_0_6_0) : (⟨S131072x16x4, .f32⟩ : BufTy).Contents (Elt F) → (⟨S131072x1x4, .f32⟩ : BufTy).Contents (Elt F)),
    reshape main_v60 main_v61 rfl shapeCasts_S131072x1x4_S131072x4,
    binary main_v59 main_v61 main_v62 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v63 ((extractStridedSlice S1x32x4x32 ![6, 0, 0, 0] · slices_S14x32x4x32_S1x32x4x32_6_0_0_0) : (⟨S14x32x4x32, .f32⟩ : BufTy).Contents (Elt F) → (⟨S1x32x4x32, .f32⟩ : BufTy).Contents (Elt F)),
    reshape main_v63 main_v64 rfl shapeCasts_S1x32x4x32_S32x4x32,
    binary main_v26 main_v64 main_v65 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v66 ((extractStridedSlice S131072x1x4 ![0, 7, 0] · slices_S131072x16x4_S131072x1x4_0_7_0) : (⟨S131072x16x4, .f32⟩ : BufTy).Contents (Elt F) → (⟨S131072x1x4, .f32⟩ : BufTy).Contents (Elt F)),
    reshape main_v66 main_v67 rfl shapeCasts_S131072x1x4_S131072x4,
    binary main_v65 main_v67 main_v68 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v69 ((extractStridedSlice S1x32x4x32 ![7, 0, 0, 0] · slices_S14x32x4x32_S1x32x4x32_7_0_0_0) : (⟨S14x32x4x32, .f32⟩ : BufTy).Contents (Elt F) → (⟨S1x32x4x32, .f32⟩ : BufTy).Contents (Elt F)),
    reshape main_v69 main_v70 rfl shapeCasts_S1x32x4x32_S32x4x32,
    binary main_v26 main_v70 main_v71 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v72 ((extractStridedSlice S131072x1x4 ![0, 8, 0] · slices_S131072x16x4_S131072x1x4_0_8_0) : (⟨S131072x16x4, .f32⟩ : BufTy).Contents (Elt F) → (⟨S131072x1x4, .f32⟩ : BufTy).Contents (Elt F)),
    reshape main_v72 main_v73 rfl shapeCasts_S131072x1x4_S131072x4,
    binary main_v71 main_v73 main_v74 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v75 ((extractStridedSlice S1x32x4x32 ![8, 0, 0, 0] · slices_S14x32x4x32_S1x32x4x32_8_0_0_0) : (⟨S14x32x4x32, .f32⟩ : BufTy).Contents (Elt F) → (⟨S1x32x4x32, .f32⟩ : BufTy).Contents (Elt F)),
    reshape main_v75 main_v76 rfl shapeCasts_S1x32x4x32_S32x4x32,
    binary main_v26 main_v76 main_v77 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v78 ((extractStridedSlice S131072x1x4 ![0, 9, 0] · slices_S131072x16x4_S131072x1x4_0_9_0) : (⟨S131072x16x4, .f32⟩ : BufTy).Contents (Elt F) → (⟨S131072x1x4, .f32⟩ : BufTy).Contents (Elt F)),
    reshape main_v78 main_v79 rfl shapeCasts_S131072x1x4_S131072x4,
    binary main_v77 main_v79 main_v80 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v81 ((extractStridedSlice S1x32x4x32 ![9, 0, 0, 0] · slices_S14x32x4x32_S1x32x4x32_9_0_0_0) : (⟨S14x32x4x32, .f32⟩ : BufTy).Contents (Elt F) → (⟨S1x32x4x32, .f32⟩ : BufTy).Contents (Elt F)),
    reshape main_v81 main_v82 rfl shapeCasts_S1x32x4x32_S32x4x32,
    binary main_v26 main_v82 main_v83 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v84 ((extractStridedSlice S131072x1x4 ![0, 10, 0] · slices_S131072x16x4_S131072x1x4_0_10_0) : (⟨S131072x16x4, .f32⟩ : BufTy).Contents (Elt F) → (⟨S131072x1x4, .f32⟩ : BufTy).Contents (Elt F)),
    reshape main_v84 main_v85 rfl shapeCasts_S131072x1x4_S131072x4,
    binary main_v83 main_v85 main_v86 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v87 ((extractStridedSlice S1x32x4x32 ![10, 0, 0, 0] · slices_S14x32x4x32_S1x32x4x32_10_0_0_0) : (⟨S14x32x4x32, .f32⟩ : BufTy).Contents (Elt F) → (⟨S1x32x4x32, .f32⟩ : BufTy).Contents (Elt F)),
    reshape main_v87 main_v88 rfl shapeCasts_S1x32x4x32_S32x4x32,
    binary main_v26 main_v88 main_v89 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v90 ((extractStridedSlice S131072x1x4 ![0, 11, 0] · slices_S131072x16x4_S131072x1x4_0_11_0) : (⟨S131072x16x4, .f32⟩ : BufTy).Contents (Elt F) → (⟨S131072x1x4, .f32⟩ : BufTy).Contents (Elt F)),
    reshape main_v90 main_v91 rfl shapeCasts_S131072x1x4_S131072x4,
    binary main_v89 main_v91 main_v92 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v93 ((extractStridedSlice S1x32x4x32 ![11, 0, 0, 0] · slices_S14x32x4x32_S1x32x4x32_11_0_0_0) : (⟨S14x32x4x32, .f32⟩ : BufTy).Contents (Elt F) → (⟨S1x32x4x32, .f32⟩ : BufTy).Contents (Elt F)),
    reshape main_v93 main_v94 rfl shapeCasts_S1x32x4x32_S32x4x32,
    binary main_v26 main_v94 main_v95 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v96 ((extractStridedSlice S131072x1x4 ![0, 12, 0] · slices_S131072x16x4_S131072x1x4_0_12_0) : (⟨S131072x16x4, .f32⟩ : BufTy).Contents (Elt F) → (⟨S131072x1x4, .f32⟩ : BufTy).Contents (Elt F)),
    reshape main_v96 main_v97 rfl shapeCasts_S131072x1x4_S131072x4,
    binary main_v95 main_v97 main_v98 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v99 ((extractStridedSlice S1x32x4x32 ![12, 0, 0, 0] · slices_S14x32x4x32_S1x32x4x32_12_0_0_0) : (⟨S14x32x4x32, .f32⟩ : BufTy).Contents (Elt F) → (⟨S1x32x4x32, .f32⟩ : BufTy).Contents (Elt F)),
    reshape main_v99 main_v100 rfl shapeCasts_S1x32x4x32_S32x4x32,
    binary main_v26 main_v100 main_v101 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v102 ((extractStridedSlice S131072x1x4 ![0, 13, 0] · slices_S131072x16x4_S131072x1x4_0_13_0) : (⟨S131072x16x4, .f32⟩ : BufTy).Contents (Elt F) → (⟨S131072x1x4, .f32⟩ : BufTy).Contents (Elt F)),
    reshape main_v102 main_v103 rfl shapeCasts_S131072x1x4_S131072x4,
    binary main_v101 main_v103 main_v104 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    unary main_arg6 main_v105 ((extractStridedSlice S1x32x4x32 ![13, 0, 0, 0] · slices_S14x32x4x32_S1x32x4x32_13_0_0_0) : (⟨S14x32x4x32, .f32⟩ : BufTy).Contents (Elt F) → (⟨S1x32x4x32, .f32⟩ : BufTy).Contents (Elt F)),
    reshape main_v105 main_v106 rfl shapeCasts_S1x32x4x32_S32x4x32,
    binary main_v26 main_v106 main_v107 ((fun l r => Host.dotGeneral dot_S131072x32_S32x4x32_S131072x4x32_1_0_0_12_n_n none l r) : (⟨S131072x32, .f32⟩ : BufTy).Contents (Elt F) → (⟨S32x4x32, .f32⟩ : BufTy).Contents (Elt F) → (⟨S131072x4x32, .f32⟩ : BufTy).Contents (Elt F)),
    unary main_v23 main_v108 ((extractStridedSlice S131072x1x4 ![0, 14, 0] · slices_S131072x16x4_S131072x1x4_0_14_0) : (⟨S131072x16x4, .f32⟩ : BufTy).Contents (Elt F) → (⟨S131072x1x4, .f32⟩ : BufTy).Contents (Elt F)),
    reshape main_v108 main_v109 rfl shapeCasts_S131072x1x4_S131072x4,
    binary main_v107 main_v109 main_v110 ((fun l r => Host.dotGeneral dot_S131072x4x32_S131072x4_S131072x32_1_1_2_n_0_0 none l r) : (⟨S131072x4x32, .f32⟩ : BufTy).Contents (Elt F) → (⟨S131072x4, .f32⟩ : BufTy).Contents (Elt F) → (⟨S131072x32, .f32⟩ : BufTy).Contents (Elt F)),
    binary main_v26 main_arg7 main_v111 ((fun l r => Host.dotGeneral dot_S131072x32_S32x4_S131072x4_1_0_0_1_n_n none l r) : (⟨S131072x32, .f32⟩ : BufTy).Contents (Elt F) → (⟨S32x4, .f32⟩ : BufTy).Contents (Elt F) → (⟨S131072x4, .f32⟩ : BufTy).Contents (Elt F)),
    unary main_v23 main_v112 ((extractStridedSlice S131072x1x4 ![0, 15, 0] · slices_S131072x16x4_S131072x1x4_0_15_0) : (⟨S131072x16x4, .f32⟩ : BufTy).Contents (Elt F) → (⟨S131072x1x4, .f32⟩ : BufTy).Contents (Elt F)),
    reshape main_v112 main_v113 rfl shapeCasts_S131072x1x4_S131072x4,
    binary main_v111 main_v113 main_v114 (mulf : (⟨S131072x4, .f32⟩ : BufTy).Contents (Elt F) → (⟨S131072x4, .f32⟩ : BufTy).Contents (Elt F) → (⟨S131072x4, .f32⟩ : BufTy).Contents (Elt F)),
    nullary main_cst_2 (constant S_ .f32 0x00000000#32) ]

/-- The 21 operations of window 2 of @main (main_part2), in order. -/
abbrev ops2 : List (HloOp τ sig (Elt F)) :=
  [ binary main_v114 main_cst_2 main_v115 ((fun x v => Host.reduceAdd x v reducesTo_S131072x4_S131072_d1 h_S_) : (⟨S131072x4, .f32⟩ : BufTy).Contents (Elt F) → (⟨S_, .f32⟩ : BufTy).Contents (Elt F) → (⟨S131072, .f32⟩ : BufTy).Contents (Elt F)),
    unary main_v115 main_v116 (broadcastInDim S131072x1 ![0] bcast_S131072_S131072x1_0 : (⟨S131072, .f32⟩ : BufTy).Contents (Elt F) → (⟨S131072x1, .f32⟩ : BufTy).Contents (Elt F)),
    binary main_v26 main_arg8 main_v117 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    unary main_arg9 main_v118 (broadcastInDim S1x64 ![1] bcast_S64_S1x64_1 : (⟨S64, .f32⟩ : BufTy).Contents (Elt F) → (⟨S1x64, .f32⟩ : BufTy).Contents (Elt F)),
    unary main_v118 main_v119 (broadcastInDim S131072x64 ![0, 1] bcast_S1x64_S131072x64_0_1 : (⟨S1x64, .f32⟩ : BufTy).Contents (Elt F) → (⟨S131072x64, .f32⟩ : BufTy).Contents (Elt F)),
    binary main_v117 main_v119 main_v120 (addf : (⟨S131072x64, .f32⟩ : BufTy).Contents (Elt F) → (⟨S131072x64, .f32⟩ : BufTy).Contents (Elt F) → (⟨S131072x64, .f32⟩ : BufTy).Contents (Elt F)),
    nullary main_call2_cst (constant S_ .f32 0x00000000#32),
    unary main_call2_cst main_call2_v0 (broadcastInDim S131072x64 ![] bcast_S_S131072x64 : (⟨S_, .f32⟩ : BufTy).Contents (Elt F) → (⟨S131072x64, .f32⟩ : BufTy).Contents (Elt F)),
    binary main_v120 main_call2_v0 main_v121 (maximumf : (⟨S131072x64, .f32⟩ : BufTy).Contents (Elt F) → (⟨S131072x64, .f32⟩ : BufTy).Contents (Elt F) → (⟨S131072x64, .f32⟩ : BufTy).Contents (Elt F)),
    binary main_v121 main_arg10 main_v122 ((fun l r => Host.dotGeneral dot_S131072x64_S64x1_S131072x1_1_0_0_1_n_n none l r) : (⟨S131072x64, .f32⟩ : BufTy).Contents (Elt F) → (⟨S64x1, .f32⟩ : BufTy).Contents (Elt F) → (⟨S131072x1, .f32⟩ : BufTy).Contents (Elt F)),
    unary main_arg11 main_v123 (broadcastInDim S1x1 ![1] bcast_S1_S1x1_1 : (⟨S1, .f32⟩ : BufTy).Contents (Elt F) → (⟨S1x1, .f32⟩ : BufTy).Contents (Elt F)),
    unary main_v123 main_v124 (broadcastInDim S131072x1 ![0, 1] bcast_S1x1_S131072x1_0_1 : (⟨S1x1, .f32⟩ : BufTy).Contents (Elt F) → (⟨S131072x1, .f32⟩ : BufTy).Contents (Elt F)),
    binary main_v122 main_v124 main_v125 (addf : (⟨S131072x1, .f32⟩ : BufTy).Contents (Elt F) → (⟨S131072x1, .f32⟩ : BufTy).Contents (Elt F) → (⟨S131072x1, .f32⟩ : BufTy).Contents (Elt F)),
    unary main_v125 main_v126 (Host.negf : (⟨S131072x1, .f32⟩ : BufTy).Contents (Elt F) → (⟨S131072x1, .f32⟩ : BufTy).Contents (Elt F)),
    unary main_v126 main_v127 (Host.exp : (⟨S131072x1, .f32⟩ : BufTy).Contents (Elt F) → (⟨S131072x1, .f32⟩ : BufTy).Contents (Elt F)),
    nullary main_cst_3 (constant S_ .f32 0x3F800000#32),
    unary main_cst_3 main_v128 (broadcastInDim S131072x1 ![] bcast_S_S131072x1 : (⟨S_, .f32⟩ : BufTy).Contents (Elt F) → (⟨S131072x1, .f32⟩ : BufTy).Contents (Elt F)),
    binary main_v128 main_v127 main_v129 (addf : (⟨S131072x1, .f32⟩ : BufTy).Contents (Elt F) → (⟨S131072x1, .f32⟩ : BufTy).Contents (Elt F) → (⟨S131072x1, .f32⟩ : BufTy).Contents (Elt F)),
    nullary main_cst_4 (constant S_ .f32 0x3F800000#32),
    unary main_cst_4 main_v130 (broadcastInDim S131072x1 ![] bcast_S_S131072x1 : (⟨S_, .f32⟩ : BufTy).Contents (Elt F) → (⟨S131072x1, .f32⟩ : BufTy).Contents (Elt F)),
    binary main_v130 main_v129 main_v131 (Host.divf : (⟨S131072x1, .f32⟩ : BufTy).Contents (Elt F) → (⟨S131072x1, .f32⟩ : BufTy).Contents (Elt F) → (⟨S131072x1, .f32⟩ : BufTy).Contents (Elt F)) ]

end Cert.RefOps

end
-- ==== Proof.RefRun.lean ====
import proofs.«172635_j55654186221891_1_alg».proof.Proof.RefStages
import proofs.«172635_j55654186221891_1_alg».proof.Proof.RefOps
import Idealize.ShloMosaic.Lib.StableHlo.Run

/-!
  The run of the reference program, read back.

  The reference's @main is a straight line of host operations (the listed ones: its three calls are their bodies in
  place), so every weakly fair execution of it terminates, and a buffer ends at the fold of the operations' results over
  what the launch put there. Read at the result buffer that fold is the composed term of the operations the result
  depends on, which are few: the encoder's layer up to the layer-normalised rows, the first of the sixteen site
  contractions, the decoder's two layers and the logistic. The other fifteen sites' slices and contractions, the trailing
  product and its row sums each write a buffer of their own that no operation on the way to the result reads, so the
  fold at the result buffer passes over them unchanged. No operation writes an argument buffer, so the twelve arguments
  end as they began.
-/

noncomputable section

namespace Cert.RefRun

open Cert.ReferenceIdeal Cert.ReferenceIdeal.Gen Cert.RefOps Idealize.ShloMosaic Idealize.ShloMosaic.TcCoe Idealize.SL.Sem Idealize.ShloMosaic.StableHlo

variable {F : FTy → Type} [FloatOps F]

/-- @main's operations, in order: the three windows' lists one after the other. -/
abbrev ops : List (HloOp τ sig (Elt F)) := ops0 ++ (ops1 ++ ops2)

/-! ## @main is that line

Each window is the line of its list by computation: sequencing a call's body, or a window, before what follows is
sequencing its steps one by one, and the typed references of a call's record are the literal references they were made
from, their transports the identity. -/

set_option maxRecDepth 8192 in
theorem part0_eq (c : Dev nD) : main_part0 (F := F) c = seq ops0 := rfl

theorem part1_eq (c : Dev nD) : main_part1 (F := F) c = seq ops1 := rfl

theorem part2_eq (c : Dev nD) : main_part2 (F := F) c = seq ops2 := rfl

/-- @main runs its windows in order, and lines run in order are their concatenation run as one. -/
theorem main_eq (c : Dev nD) : main (F := F) c = seq ops := by
  show main (F := F) c = seq (ops0 ++ (ops1 ++ ops2))
  rw [seq_append, seq_append, ← part0_eq c, ← part1_eq c, ← part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: each is one of the builders, which do. -/
theorem ops_sub : (ops : List (HloOp τ sig (Elt F))).Forall fun op => op.bufs ⊆ tcRefs τ sig := by
  refine List.forall_append.mpr ⟨?_, List.forall_append.mpr ⟨?_, ?_⟩⟩ <;>
    simp only [List.forall_cons, List.Forall, nullary_bufs_sub, unary_bufs_sub, binary_bufs_sub, ternary_bufs_sub,
      reshape_bufs_sub, and_self]

/-- Every operation determines what it writes: none of the builders leaves contents unchosen. -/
theorem ops_fresh : ∀ op ∈ (ops : List (HloOp τ sig (Elt F))), op.fresh = ∅ := by
  refine List.forall_iff_forall_mem.mp (List.forall_append.mpr ⟨?_, List.forall_append.mpr ⟨?_, ?_⟩⟩) <;>
    simp only [List.forall_cons, List.Forall] <;> (repeat' constructor)

/-! ## The fold, window by window -/

/-- Folding a concatenation is folding its parts in turn. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The twelve argument buffers. -/
abbrev args : List (Ref sig .tc) :=
  [main_arg0, main_arg1, main_arg2, main_arg3, main_arg4, main_arg5, main_arg6, main_arg7, main_arg8, main_arg9, main_arg10,
    main_arg11]

set_option maxRecDepth 8192 in
set_option maxHeartbeats 1000000 in  -- twelve folds over eighty-four operations, a thousand inequalities of references
/-- The first window writes no argument buffer. -/
theorem keep0 (V : Valuation τ sig (Elt F)) (r : Ref sig .tc) (hr : r ∈ args) :
    after ops0 V (Proc.devRef .tc r) = V (Proc.devRef .tc r) := by
  simp only [args, List.mem_cons, List.not_mem_nil, or_false] at hr
  rcases hr with rfl | rfl | rfl | rfl | rfl | rfl | rfl | rfl | rfl | rfl | rfl | rfl <;> after_results_simp

set_option maxRecDepth 8192 in
set_option maxHeartbeats 1000000 in  -- thirteen folds over sixty operations
/-- The second window — the middle sites' slices and contractions, the last site's product — writes no argument buffer
    and not the first site's contraction: it only reads them. -/
theorem keep1 (V : Valuation τ sig (Elt F)) (r : Ref sig .tc) (hr : r ∈ main_v26 :: args) :
    after ops1 V (Proc.devRef .tc r) = V (Proc.devRef .tc r) := by
  simp only [args, List.mem_cons, List.not_mem_nil, or_false] at hr
  rcases hr with rfl | rfl | rfl | rfl | rfl | rfl | rfl | rfl | rfl | rfl | rfl | rfl | rfl <;> after_results_simp

set_option maxRecDepth 8192 in
/-- The third window writes no argument buffer. -/
theorem keep2 (V : Valuation τ sig (Elt F)) (r : Ref sig .tc) (hr : r ∈ args) :
    after ops2 V (Proc.devRef .tc r) = V (Proc.devRef .tc r) := by
  simp only [args, List.mem_cons, List.not_mem_nil, or_false] at hr
  rcases hr with rfl | rfl | rfl | rfl | rfl | rfl | rfl | rfl | rfl | rfl | rfl | rfl <;> after_results_simp

/-- No operation writes an argument buffer. -/
theorem keep (V : Valuation τ sig (Elt F)) (r : Ref sig .tc) (hr : r ∈ args) :
    after ops V (Proc.devRef .tc r) = V (Proc.devRef .tc r) := by
  rw [after_append, after_append, keep2 _ r hr, keep1 _ r (List.mem_cons_of_mem _ hr), keep0 _ r hr]

set_option maxRecDepth 8192 in
/-- The first window at the first site's contraction: the encoder's hidden rows, layer-normalised, their first four
    entries against the site-0 tensor. The variance comes from the call's own buffers (its mean is the same term as
    @main's), the other sites' contractions are written after it and elsewhere. -/
theorem window0 (V : Valuation τ sig (Elt F)) :
    after ops0 V (Proc.devRef .tc main_v26)
      = Cert.RefStages.contracted (Cert.RefStages.site0 (Cert.RefStages.normed
          (Cert.RefStages.hidden (V (Proc.devRef .tc main_arg0)) (V (Proc.devRef .tc main_arg1)) (V (Proc.devRef .tc main_arg2))) (V (Proc.devRef .tc main_arg3)) (V (Proc.devRef .tc main_arg4)))) (V (Proc.devRef .tc main_arg5)) := by
  after_results_simp
  rfl

set_option maxRecDepth 8192 in
/-- The third window at the result: the decoder's two layers and the logistic, of the first site's contraction. The row
    sums of the last site's product, which open the window, are read by nothing. -/
theorem window2 (V : Valuation τ sig (Elt F)) :
    after ops2 V (Proc.devRef .tc main_v131)
      = Cert.RefStages.logisticCol (Cert.RefStages.decOut (Cert.RefStages.decHidden (V (Proc.devRef .tc main_v26))
          (V (Proc.devRef .tc main_arg8)) (V (Proc.devRef .tc main_arg9))) (V (Proc.devRef .tc main_arg10)) (V (Proc.devRef .tc main_arg11))) := by
  after_results_simp
  rfl

/-- The fold at the result buffer: the composed term of the live operations. -/
theorem result_eq (V : Valuation τ sig (Elt F)) :
    after ops V (Proc.devRef .tc main_v131)
      = Cert.RefStages.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) (V (Proc.devRef .tc main_arg9)) (V (Proc.devRef .tc main_arg10)) (V (Proc.devRef .tc main_arg11)) := by
  have h8 : main_arg8 ∈ args := by decide
  have h9 : main_arg9 ∈ args := by decide
  have h10 : main_arg10 ∈ args := by decide
  have h11 : main_arg11 ∈ args := by decide
  rw [after_append, after_append, window2, keep1 _ main_v26 List.mem_cons_self,
    keep1 _ main_arg8 (List.mem_cons_of_mem _ h8), keep1 _ main_arg9 (List.mem_cons_of_mem _ h9),
    keep1 _ main_arg10 (List.mem_cons_of_mem _ h10), keep1 _ main_arg11 (List.mem_cons_of_mem _ h11),
    keep0 _ main_arg8 h8, keep0 _ main_arg9 h9, keep0 _ main_arg10 h10, keep0 _ main_arg11 h11, window0]
  rfl

/-! ## The run -/

/-- On every device, for any float values, from any memory with zero counters: every weakly fair execution of
    @main terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v131)
        = Cert.RefStages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v131).trans (result_eq _),
      (h c main_arg0).trans (keep _ main_arg0 (by decide)),
      (h c main_arg1).trans (keep _ main_arg1 (by decide)),
      (h c main_arg2).trans (keep _ main_arg2 (by decide)),
      (h c main_arg3).trans (keep _ main_arg3 (by decide)),
      (h c main_arg4).trans (keep _ main_arg4 (by decide)),
      (h c main_arg5).trans (keep _ main_arg5 (by decide)),
      (h c main_arg6).trans (keep _ main_arg6 (by decide)),
      (h c main_arg7).trans (keep _ main_arg7 (by decide)),
      (h c main_arg8).trans (keep _ main_arg8 (by decide)),
      (h c main_arg9).trans (keep _ main_arg9 (by decide)),
      (h c main_arg10).trans (keep _ main_arg10 (by decide)),
      (h c main_arg11).trans (keep _ main_arg11 (by decide))⟩)
    (run_seq scopedRefs_eq scopedSems_eq defs main (fun _ => ops) main_eq (fun _ => ops_sub) m ρ (fun _ => ops_fresh))

end Cert.RefRun

end
-- ==== Proof.RefValue.lean ====
/-
  The reference's result, read index by index on the extended reals, is the row-wise specification.

  Each stage of the reference's chain is read at explicit coordinates (row p, column j):
    a vector laid over the rows reads its entry j, a column laid over a row reads the row's one entry, a scalar laid
    over a column reads the scalar; a row sum is zero plus the sum of the row's 64 entries, so the sum;
    the hidden row is max (x·W + b) 0; the mean is the row sum over 64; the variance's divisor 64 − 0 is 64, which is
    positive, so the guarded select takes the quotient and the variance is the sum of squared centred entries over 64;
    the normalised row is ((h − μ) / sqrt (σ² + ε)) · g + β; site 0 of the 16 × 4 view of a row is its first four
    entries (position p·64 + q on both sides of the two reshapes, offset zero in the slice); the contraction, the
    decoder's hidden row and its output are sums over the contracted coordinate; 1 / (1 + exp (−o)) is the logistic.
  Composed from the result inwards, row p of the reference's result is the row function of row p of the features.
-/
import proofs.«172635_j55654186221891_1_alg».proof.Proof.RefStages
import proofs.«172635_j55654186221891_1_alg».proof.Proof.SpecArray
import proofs.«172635_j55654186221891_1_alg».proof.Proof.LibMatRows
import Idealize.ShloMosaic.Lib.ValueIdx
import Idealize.ShloMosaic.Lib.Pipeline.Value
import Idealize.ShloMosaic.Lib.ValueLayout
import Idealize.ShloMosaic.PureOps.Ideal.Laws

noncomputable section

namespace Cert.RefValue

open Idealize.ShloMosaic Idealize.ShloMosaic.ValueIdx Cert.ReferenceIdeal Cert.ReferenceIdeal.Gen Cert.RefStages
open scoped BigOperators

/-! ## Broadcasts at coordinates -/

/-- A length-64 vector laid over every row reads, at (p, c), its entry c. -/
theorem overRows_apply (v : FVec Ideal S64 .f32) (p : Fin 131072) (c : Fin 64) :
    overRows v (ix2 p c) = v (ix1 c) := by
  unfold overRows
  refine (broadcastInDim_apply ![0, 1] bcast_S1x64_S131072x64_0_1 _ (ix2 p c) (ix2 (0 : Fin 1) c) ?_).trans ?_
  · intro a
    match a with
    | ⟨0, _⟩ => rfl
    | ⟨1, _⟩ => rfl
  · exact broadcastInDim_apply ![1] bcast_S64_S1x64_1 v (ix2 (0 : Fin 1) c) (ix1 c)
      (fun a => match a with | ⟨0, _⟩ => rfl)

/-- A column laid over the 64 entries of its row reads, at (p, c), the column's entry (p, 0). -/
theorem overCols_apply (v : FVec Ideal S131072x1 .f32) (p : Fin 131072) (c : Fin 64) :
    overCols v (ix2 p c) = v (ix2 p (0 : Fin 1)) := by
  unfold overCols
  refine broadcastInDim_apply ![0, 1] bcast_S131072x1_S131072x64_0_1 v (ix2 p c) (ix2 p (0 : Fin 1)) ?_
  intro a
  match a with
  | ⟨0, _⟩ => rfl
  | ⟨1, _⟩ => rfl

/-- A scalar laid over any shape reads the scalar everywhere (for any element type: a float or a one-bit condition). -/
theorem bcastScalar_apply {α : Type} {T : Shape} (h : S_.BroadcastsInDim T ![]) (x : S_.Idx → α) (j : T.Idx) :
    broadcastInDim T ![] h x j = x ix0 := by
  unfold broadcastInDim
  exact congrArg x (funext fun a => a.elim0)

/-- A scalar laid over a column reads the scalar. -/
theorem splatCol_apply (v : FVec Ideal S_ .f32) (j : S131072x1.Idx) : splatCol v j = v ix0 := by
  unfold splatCol
  exact bcastScalar_apply _ v j

/-! ## The encoder's hidden row -/

/-- The maximum with the broadcast zero, at an index. -/
theorem relu64_apply (x : FVec Ideal S131072x64 .f32) (j : S131072x64.Idx) :
    relu64 x j = max (x j) (Ideal.ofBits .f32 0x00000000#32) := by
  unfold relu64
  refine (maximumf_apply _ _ j).trans ?_
  congr 1

/-- Row p of the hidden array is max (x·W + b) 0 of row p of X. -/
theorem hidden_apply (X : FVec Ideal S131072x512 .f32) (W : FVec Ideal S512x64 .f32) (b : FVec Ideal S64 .f32)
    (p : Fin 131072) (j : Fin 64) :
    Cert.RefStages.hidden X W b (ix2 p j)
      = Cert.Spec.encRow (fun k => X (ix2 p k)) (fun k j => W (ix2 k j)) (fun j => b (ix1 j)) j := by
  unfold Cert.RefStages.hidden Cert.Spec.encRow
  rw [relu64_apply, addf_apply, overRows_apply,
    Cert.LibMatRows.dotGeneral_plain_apply dot_S131072x512_S512x64_S131072x64_1_0_0_1_n_n rfl none X W p j]

/-! ## Mean and variance -/

/-- The row sum at row p: zero plus the sum of the 64 entries, so the sum. -/
theorem rowSum_apply (h : FVec Ideal S131072x64 .f32) (p : Fin 131072) :
    rowSum h (ix2 p (0 : Fin 1)) = ∑ k : Fin 64, h (ix2 p k) := by
  unfold rowSum
  refine (broadcastInDim_apply ![0] bcast_S131072_S131072x1_0 _ (ix2 p (0 : Fin 1)) (ix1 p)
    (fun a => match a with | ⟨0, _⟩ => rfl)).trans ?_
  refine (Cert.LibMatRows.hostReduceAdd_rows_apply h _ reducesTo_S131072x64_S131072_d1 h_S_ (by decide) p).trans ?_
  rw [constant_apply, Ideal.ofBits_zero_f32, zero_add]

/-- The mean of row p: its sum over 64. -/
theorem rowMean_apply (h : FVec Ideal S131072x64 .f32) (p : Fin 131072) :
    rowMean h (ix2 p (0 : Fin 1)) = Cert.Spec.mean (fun j => h (ix2 p j)) := by
  unfold rowMean Cert.Spec.mean
  show Ideal.div (rowSum h (ix2 p (0 : Fin 1)))
    (splatCol (F := Ideal) (constant S_ .f32 0x42800000#32) (ix2 p (0 : Fin 1))) = _
  rw [rowSum_apply, splatCol_apply, constant_apply]

/-- An entry less its row's mean. -/
theorem centered_apply (h : FVec Ideal S131072x64 .f32) (p : Fin 131072) (j : Fin 64) :
    centered h (ix2 p j) = h (ix2 p j) - Cert.Spec.mean (fun j => h (ix2 p j)) := by
  unfold centered
  rw [subf_apply, overCols_apply, rowMean_apply]

/-- The variance's divisor 64 − 0 is 64: the zero integer converts to the real zero. -/
theorem varDivisor_apply : varDivisor (F := Ideal) ix0 = Ideal.ofBits .f32 0x42800000#32 := by
  unfold varDivisor
  rw [subf_apply, constant_apply, sitofp_apply]
  show Ideal.ofBits .f32 0x42800000#32 - (((0#32 : BitVec 32).toInt : ℝ) : EReal) = _
  simp

/-- The guard 64 − 0 > 0 holds at every row: 0 < 64. -/
theorem varGuard_apply (j : S131072x1.Idx) :
    broadcastInDim S131072x1 ![] bcast_S_S131072x1
      (cmpf .ogt (varDivisor (F := Ideal)) (constant S_ .f32 0x00000000#32)) j = 1#1 := by
  rw [bcastScalar_apply, cmpf_apply, Ideal.cmpf_def, varDivisor_apply, constant_apply, Ideal.ofBits_zero_f32,
    Cert.Spec.ofBits_64]
  show BitVec.ofBool (decide ((0 : EReal) < ((64 : ℝ) : EReal))) = 1#1
  rw [decide_eq_true (by exact_mod_cast (by norm_num : (0 : ℝ) < 64))]
  rfl

/-- The variance of row p: the guard holds, so the select takes the sum of squared centred entries over 64. -/
theorem rowVar_apply (h : FVec Ideal S131072x64 .f32) (p : Fin 131072) :
    rowVar h (ix2 p (0 : Fin 1)) = Cert.Spec.var (fun j => h (ix2 p j)) := by
  unfold rowVar
  rw [select_apply, varGuard_apply, select_one]
  show Ideal.div (rowSum (mulf (centered h) (centered h)) (ix2 p (0 : Fin 1)))
    (splatCol (varDivisor (F := Ideal)) (ix2 p (0 : Fin 1))) = _
  rw [rowSum_apply, splatCol_apply, varDivisor_apply]
  unfold Cert.Spec.var
  exact congrArg (Ideal.div · (Ideal.ofBits .f32 0x42800000#32))
    (Finset.sum_congr rfl fun k _ => by rw [mulf_apply, centered_apply])

/-! ## The normalised row and its site 0 -/

/-- Row p of the normalised array is ((h − μ) / sqrt (σ² + ε)) · g + β of row p of h. -/
theorem normed_apply (h : FVec Ideal S131072x64 .f32) (g β : FVec Ideal S64 .f32) (p : Fin 131072) (j : Fin 64) :
    normed h g β (ix2 p j)
      = Cert.Spec.lnRow (fun j => h (ix2 p j)) (fun j => g (ix1 j)) (fun j => β (ix1 j)) j := by
  unfold normed Cert.Spec.lnRow
  rw [addf_apply, mulf_apply, overRows_apply, overRows_apply]
  show Ideal.div (centered h (ix2 p j))
    (overCols (Host.sqrt (addf (rowVar h) (splatCol (F := Ideal) (constant S_ .f32 0x3727C5AC#32)))) (ix2 p j))
      * g (ix1 j) + β (ix1 j) = _
  rw [overCols_apply, centered_apply]
  show Ideal.div _ (Ideal.sqrt
    (addf (rowVar h) (splatCol (F := Ideal) (constant S_ .f32 0x3727C5AC#32)) (ix2 p (0 : Fin 1)))) * _ + _ = _
  rw [addf_apply, rowVar_apply, splatCol_apply, constant_apply]

/-- Site 0 of the 16 × 4 view of row p, entry q, is entry q of the row: the row-major position is p·64 + q through
    both reshapes, and the slice starts at offset zero on every axis. -/
theorem site0_apply (y : FVec Ideal S131072x64 .f32) (p : Fin 131072) (q : Fin 4) :
    site0 y (ix2 p q) = y (ix2 p (Fin.castLE (by decide) q)) := by
  unfold site0
  refine (shapeCast_apply _ shapeCasts_S131072x1x4_S131072x4 (ix2 p q) (ix3 p (0 : Fin 1) q) ?_).trans ?_
  · rw [Shape.rowMajor_val_three, Shape.rowMajor_val_two]
    show (p.val * 1 + 0) * 4 + q.val = p.val * 4 + q.val
    omega
  refine (extractStridedSlice_apply ![0, 0, 0] _ slices_S131072x16x4_S131072x1x4_0_0_0 (ix3 p (0 : Fin 1) q)
    (ix3 p (0 : Fin 16) q) ?_).trans ?_
  · intro a
    match a with
    | ⟨0, _⟩ => show p.val = 0 + p.val; omega
    | ⟨1, _⟩ => show 0 = 0 + 0; rfl
    | ⟨2, _⟩ => show q.val = 0 + q.val; omega
  refine shapeCast_apply y shapeCasts_S131072x64_S131072x16x4 (ix3 p (0 : Fin 16) q)
    (ix2 p (Fin.castLE (by decide) q)) ?_
  rw [Shape.rowMajor_val_three, Shape.rowMajor_val_two]
  show p.val * 64 + q.val = (p.val * 16 + 0) * 4 + q.val
  omega

/-- The site-0 contraction at (p, x): the sum over the four entries. -/
theorem contracted_apply (e : FVec Ideal S131072x4 .f32) (M : FVec Ideal S4x32 .f32) (p : Fin 131072) (x : Fin 32) :
    contracted e M (ix2 p x) = ∑ k : Fin 4, e (ix2 p k) * M (ix2 k x) :=
  Cert.LibMatRows.dotGeneral_plain_apply dot_S131072x4_S4x32_S131072x32_1_0_0_1_n_n rfl none e M p x

/-- Row p of the contraction of site 0 is the first four entries of row p against the 4 × 32 tensor. -/
theorem contracted_site0_row (y : FVec Ideal S131072x64 .f32) (M : FVec Ideal S4x32 .f32) (p : Fin 131072) :
    (fun x => contracted (site0 y) M (ix2 p x))
      = Cert.Spec.siteRow (fun j => y (ix2 p j)) (fun k x => M (ix2 k x)) := by
  funext x
  rw [contracted_apply]
  unfold Cert.Spec.siteRow
  exact Finset.sum_congr rfl fun k _ => by rw [site0_apply]

/-! ## The decoder -/

/-- Row p of the decoder's hidden array is max (s·W₁ + b₁) 0 of row p of s. -/
theorem decHidden_apply (s : FVec Ideal S131072x32 .f32) (W1 : FVec Ideal S32x64 .f32) (b1 : FVec Ideal S64 .f32)
    (p : Fin 131072) (q : Fin 64) :
    decHidden s W1 b1 (ix2 p q)
      = Cert.Spec.decRow (fun x => s (ix2 p x)) (fun x q => W1 (ix2 x q)) (fun q => b1 (ix1 q)) q := by
  unfold decHidden Cert.Spec.decRow
  rw [relu64_apply, addf_apply, overRows_apply,
    Cert.LibMatRows.dotGeneral_plain_apply dot_S131072x32_S32x64_S131072x64_1_0_0_1_n_n rfl none s W1 p q]

/-- The decoder's output before the logistic at row p: d·W₂ + b₂, the one-entry bias read at its entry. -/
theorem decOut_apply (d : FVec Ideal S131072x64 .f32) (W2 : FVec Ideal S64x1 .f32) (b2 : FVec Ideal S1 .f32)
    (p : Fin 131072) :
    decOut d W2 b2 (ix2 p (0 : Fin 1))
      = (∑ q : Fin 64, d (ix2 p q) * W2 (ix2 q (0 : Fin 1))) + b2 (ix1 (0 : Fin 1)) := by
  unfold decOut
  rw [addf_apply,
    Cert.LibMatRows.dotGeneral_plain_apply dot_S131072x64_S64x1_S131072x1_1_0_0_1_n_n rfl none d W2 p (0 : Fin 1)]
  refine congrArg (_ + ·) ?_
  refine (broadcastInDim_apply ![0, 1] bcast_S1x1_S131072x1_0_1 _ (ix2 p (0 : Fin 1))
    (ix2 (0 : Fin 1) (0 : Fin 1)) ?_).trans ?_
  · intro a
    match a with
    | ⟨0, _⟩ => rfl
    | ⟨1, _⟩ => rfl
  · exact broadcastInDim_apply ![1] bcast_S1_S1x1_1 b2 (ix2 (0 : Fin 1) (0 : Fin 1)) (ix1 (0 : Fin 1))
      (fun a => match a with | ⟨0, _⟩ => rfl)

/-- 1 / (1 + exp (−o)) at an index is the logistic of the entry. -/
theorem logisticCol_apply (o : FVec Ideal S131072x1 .f32) (j : S131072x1.Idx) :
    logisticCol o j = Ideal.logistic (o j) := by
  unfold logisticCol
  show Ideal.div (splatCol (F := Ideal) (constant S_ .f32 0x3F800000#32) j)
    (splatCol (F := Ideal) (constant S_ .f32 0x3F800000#32) j + Ideal.exp (-(o j))) = _
  rw [splatCol_apply, constant_apply]
  exact Cert.Spec.logistic_eq (o j)

/-! ## The whole chain -/

/-- The reference's result is the row function laid over the rows. -/
theorem result_eq (X : FVec Ideal S131072x512 .f32) (W : FVec Ideal S512x64 .f32) (b g β : FVec Ideal S64 .f32) (M : FVec Ideal S4x32 .f32) (W1 : FVec Ideal S32x64 .f32) (b1 : FVec Ideal S64 .f32) (W2 : FVec Ideal S64x1 .f32) (b2 : FVec Ideal S1 .f32) :
    Cert.RefStages.result (F := Ideal) X W b g β M W1 b1 W2 b2 = Cert.Spec.wholeOut X W b g β M W1 b1 W2 b2 := by
  funext i
  obtain ⟨p, z, rfl⟩ : ∃ (p : Fin 131072) (z : Fin 1), i = ix2 p z := ⟨i 0, i 1, eq_ix2 i⟩
  obtain rfl : z = 0 := Subsingleton.elim _ _
  show logisticCol (decOut (decHidden (contracted (site0 (normed (Cert.RefStages.hidden X W b) g β)) M) W1 b1) W2 b2)
      (ix2 p (0 : Fin 1))
    = Cert.Spec.outRow (Cert.Spec.decRow (Cert.Spec.siteRow (Cert.Spec.lnRow
        (Cert.Spec.encRow (fun k => X (ix2 p k)) (fun k j => W (ix2 k j)) (fun j => b (ix1 j)))
        (fun j => g (ix1 j)) (fun j => β (ix1 j))) (fun k x => M (ix2 k x))) (fun x q => W1 (ix2 x q))
        (fun q => b1 (ix1 q))) (fun q => W2 (ix2 q (0 : Fin 1))) (b2 (ix1 (0 : Fin 1)))
  rw [logisticCol_apply, decOut_apply]
  unfold Cert.Spec.outRow
  -- the hidden row of row p
  have e3 : (fun j => Cert.RefStages.hidden X W b (ix2 p j))
      = Cert.Spec.encRow (fun k => X (ix2 p k)) (fun k j => W (ix2 k j)) (fun j => b (ix1 j)) :=
    funext fun j => hidden_apply X W b p j
  -- its normalised row
  have e2 : (fun j => normed (Cert.RefStages.hidden X W b) g β (ix2 p j))
      = Cert.Spec.lnRow (Cert.Spec.encRow (fun k => X (ix2 p k)) (fun k j => W (ix2 k j)) (fun j => b (ix1 j)))
        (fun j => g (ix1 j)) (fun j => β (ix1 j)) := by
    funext j
    rw [normed_apply, e3]
  -- the decoder's hidden row
  have e1 : (fun q => decHidden (contracted (site0 (normed (Cert.RefStages.hidden X W b) g β)) M) W1 b1 (ix2 p q))
      = Cert.Spec.decRow (Cert.Spec.siteRow (Cert.Spec.lnRow
        (Cert.Spec.encRow (fun k => X (ix2 p k)) (fun k j => W (ix2 k j)) (fun j => b (ix1 j)))
        (fun j => g (ix1 j)) (fun j => β (ix1 j))) (fun k x => M (ix2 k x))) (fun x q => W1 (ix2 x q))
        (fun q => b1 (ix1 q)) := by
    funext q
    rw [decHidden_apply, contracted_site0_row, e2]
  exact congrArg
    (fun d : Fin 64 → EReal => Ideal.logistic ((∑ q, d q * W2 (ix2 q (0 : Fin 1))) + b2 (ix1 (0 : Fin 1)))) e1

end Cert.RefValue

end
-- ==== Proof.lean ====
/-
  The kernel against its reference, over the extended reals.

  Both programs compute, for each of 131072 rows x of the feature array: the hidden row h = max(x·W + b, 0); its mean μ
  and biased variance σ² over its 64 entries; the normalised row ((h − μ) / sqrt(σ² + ε)) · g + β; the contraction of its
  first four entries (site 0 of the 16 × 4 view) with the 4 × 32 site-0 tensor; the decoder's hidden row
  max(s·W₁ + b₁, 0); and the logistic of d·W₂ + b₂. The reference also computes fourteen middle-site contractions and a
  last-site one, but overwrites each before it is read: none reaches the result, and the kernel leaves them out.

  The kernel computes the row function on blocks of 4096 rows, one per grid point, with the weights staged whole; its
  result array is the row function laid over all rows (the blocks cover every row once). The reference's result term,
  read index by index, is the same function. The spellings differ in three places, none of which changes the value on
  the extended reals: format changes are the identity; a matrix product into a zero accumulator, a dot_general, a
  vector reduction and a host reduce from zero are plain sums; and the kernel multiplies by rsqrt(σ² + ε) where the
  reference divides by sqrt(σ² + ε), which agree because σ² + ε is positive for every row (a sum of squares over 64 is
  nonnegative on the extended reals, ε is a positive real; at ⊤ both sides multiply by 0). The logistic is by
  definition 1 / (1 + exp(−o)). So the claim holds at every input, and the finiteness precondition is never opened.

  The frames of the kernel and of its idealization are the generated frame certificates; the reference's frame is its
  run with the result dropped; no rewrite was applied by the idealization, so there is nothing to preserve.
-/
import proofs.«172635_j55654186221891_1_alg».proof.Defs
import proofs.«172635_j55654186221891_1_alg».proof.Proof.Gen.Kernel
import proofs.«172635_j55654186221891_1_alg».proof.Proof.Gen.Kernel.Skeleton
import proofs.«172635_j55654186221891_1_alg».proof.Proof.Gen.Kernel.Launch
import proofs.«172635_j55654186221891_1_alg».proof.Proof.Gen.Kernel.Points
import proofs.«172635_j55654186221891_1_alg».proof.Proof.Gen.Kernel.Frame
import proofs.«172635_j55654186221891_1_alg».proof.Proof.Gen.KernelIdeal
import proofs.«172635_j55654186221891_1_alg».proof.Proof.Gen.KernelIdeal.Skeleton
import proofs.«172635_j55654186221891_1_alg».proof.Proof.Gen.KernelIdeal.Launch
import proofs.«172635_j55654186221891_1_alg».proof.Proof.Gen.KernelIdeal.Points
import proofs.«172635_j55654186221891_1_alg».proof.Proof.Gen.KernelIdeal.Frame
import proofs.«172635_j55654186221891_1_alg».proof.Proof.Gen.KernelIdeal.Value
import proofs.«172635_j55654186221891_1_alg».proof.Proof.Gen.ReferenceIdeal
import proofs.«172635_j55654186221891_1_alg».proof.Proof.Gen.Pre_finite_inputs
import proofs.«172635_j55654186221891_1_alg».proof.Proof.KernelBlocks
import proofs.«172635_j55654186221891_1_alg».proof.Proof.RefRun
import proofs.«172635_j55654186221891_1_alg».proof.Proof.RefValue
import Idealize.ShloMosaic.Adequacy
import Idealize.ShloMosaic.Init

noncomputable section

namespace Cert.Proof

open Idealize.ShloMosaic Idealize.SL.Sem

/-- The kernel at the word level runs, faults nowhere and leaves its arguments: the generated frame. -/
theorem frame_kernel : Cert.frame_Kernel := fun m ρ _ => Cert.Kernel.Gen.frame m ρ

/-- The same for its idealization. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.RefRun.run (F := Ideal) m ρ)

/-- The idealization rewrote nothing. -/
theorem preserves : Cert.preserves_Kernel_KernelIdeal := trivial

/-- From memories that agree on the arguments, the kernel's result array and the reference's are both the row
    function laid over the rows of the feature array. -/
theorem algebraic : Cert.algebraic_KernelIdeal_ReferenceIdeal := by
  intro m ρ m' ρ' _ hagree
  refine ⟨_, Cert.KernelBlocks.run m ρ, ?_⟩
  refine (θ_run Cert.ReferenceIdeal.defs _ _).mono (fun _ h c => ⟨(h c).1.trans ?_, (h c).2⟩)
    (Cert.RefRun.run (F := Ideal) m' ρ')
  obtain ⟨h0, h1, h2, h3, h4, h5, -, -, h8, h9, h10, h11⟩ := hagree c
  rw [Cert.RefValue.result_eq, h0, h1, h2, h3, h4, h5, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
